-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x1 : Shape := ⟨2, ![1000000, 1]⟩
abbrev S2x1000000 : Shape := ⟨2, ![2, 1000000]⟩
abbrev S100000x1 : Shape := ⟨2, ![100000, 1]⟩
abbrev S64x64 : Shape := ⟨2, ![64, 64]⟩
abbrev S64 : Shape := ⟨1, ![64]⟩
abbrev S64x129 : Shape := ⟨2, ![64, 129]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x129 : S_.BroadcastsInDim S64x129 (![] : Fin 0 → Fin S64x129.rank)
  reducesTo_S64x129_S_d0_1 : S64x129.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part3 {F : FTy → Type} [FloatOps F] (main_arg2 : IVec S2x1000000 32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S2x1000000 32 := broadcastInDim S2x1000000 ![] bcast_S_S2x1000000 main_c_22
  let main_v60 : IVec S2x1000000 1 := cmpi .sge main_arg2 main_v59
  let main_c_23 : IVec S_ 1 := constantI S_ 1 1#1
  let main_v61 : IVec S_ 1 := (fun x v => Host.reduce IntOp.andi x v reducesTo_S2x1000000_S_d0_1 h_S_) main_v60 main_c_23
  let main_v62 : IVec S_ 1 := andi main_v58 main_v61
  let main_c_24 : IVec S_ 32 := constantI S_ 32 100000#32
  let main_v63 : IVec S2x1000000 32 := broadcastInDim S2x1000000 ![] bcast_S_S2x1000000 main_c_24
  let main_v64 : IVec S2x1000000 1 := cmpi .slt main_arg2 main_v63
  let main_c_25 : IVec S_ 1 := constantI S_ 1 1#1
  let main_v65 : IVec S_ 1 := (fun x v => Host.reduce IntOp.andi x v reducesTo_S2x1000000_S_d0_1 h_S_) main_v64 main_c_25
  let main_v66 : IVec S_ 1 := andi main_v62 main_v65
  main_v66

def fn_part2 {F : FTy → Type} [FloatOps F] (main_arg2 : IVec S2x1000000 32) (main_arg8 : FVec F S64 .f32) (main_arg9 : FVec F S1x64 .f32) (main_arg10 : FVec F S1 .f32) (main_arg11 : FVec F S64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg9
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg2 main_arg12 main_v48 main_v49 main_v50

def fn_part1 {F : FTy → Type} [FloatOps F] (main_arg2 : IVec S2x1000000 32) (main_arg5 : FVec F S64x64 .f32) (main_arg6 : FVec F S64 .f32) (main_arg7 : FVec F S64x129 .f32) (main_arg8 : FVec F S64 .f32) (main_arg9 : FVec F S1x64 .f32) (main_arg10 : FVec F S1 .f32) (main_arg11 : FVec F S64 .f32) (main_arg12 : FVec F S64 .f32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x129 .f32 := Host.absf main_arg7
  let main_cst_10 : FVec F S_ .f32 := constant S_ .f32 0x7F800000#32
  let main_v30 : FVec F S64x129 .f32 := broadcastInDim S64x129 ![] bcast_S_S64x129 main_cst_10
  let main_v31 : IVec S64x129 1 := cmpf .olt main_v29 main_v30
  let main_c_11 : IVec S_ 1 := constantI S_ 1 1#1
  let main_v32 : IVec S_ 1 := (fun x v => Host.reduce IntOp.andi x v reducesTo_S64x129_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S100000x64 .f32) (main_arg1 : FVec F S1000000x1 .f32) (main_arg2 : IVec S2x1000000 32) (main_arg3 : FVec F S100000x1 .f32) (main_arg4 : FVec F S1000000x1 .f32) (main_arg5 : FVec F S64x64 .f32) (main_arg6 : FVec F S64 .f32) (main_arg7 : FVec F S64x129 .f32) (main_arg8 : FVec F S64 .f32) (main_arg9 : FVec F S1x64 .f32) (main_arg10 : FVec F S1 .f32) (main_arg11 : FVec F S64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S1000000x1 .f32 := Host.absf main_arg4
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg2 main_arg5 main_arg6 main_arg7 main_arg8 main_arg9 main_arg10 main_arg11 main_arg12 main_v13 main_v16
-- ==== Kernel.lean ====
abbrev S100000x64 : Shape := ⟨2, ![100000, 64]⟩
abbrev S1000000x1 : Shape := ⟨2, ![1000000, 1]⟩
abbrev S2x1000000 : Shape := ⟨2, ![2, 1000000]⟩
abbrev S100000x1 : Shape := ⟨2, ![100000, 1]⟩
abbrev S64x64 : Shape := ⟨2, ![64, 64]⟩
abbrev S64 : Shape := ⟨1, ![64]⟩
abbrev S64x129 : Shape := ⟨2, ![64, 129]⟩
abbrev S1x64 : Shape := ⟨2, ![1, 64]⟩
abbrev S1 : Shape := ⟨1, ![1]⟩
abbrev S10000x64 : Shape := ⟨2, ![10000, 64]⟩
abbrev S1x1000000 : Shape := ⟨2, ![1, 1000000]⟩
abbrev S1000000 : Shape := ⟨1, ![1000000]⟩
abbrev S_ : Shape := ⟨0, ![]⟩
abbrev S1x1 : Shape := ⟨2, ![1, 1]⟩
abbrev S1000000x64 : Shape := ⟨2, ![1000000, 64]⟩
abbrev S64x1 : Shape := ⟨2, ![64, 1]⟩
abbrev S10000x1 : Shape := ⟨2, ![10000, 1]⟩
abbrev S10000 : Shape := ⟨1, ![10000]⟩

abbrev nBuf : Space → Nat
  | .hbm => 80
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S1000000x1, .f32⟩
  | .hbm, ⟨2, _⟩ => ⟨S2x1000000, .i32⟩
  | .hbm, ⟨3, _⟩ => ⟨S100000x1, .f32⟩
  | .hbm, ⟨4, _⟩ => ⟨S1000000x1, .f32⟩
  | .hbm, ⟨5, _⟩ => ⟨S64x64, .f32⟩
  | .hbm, ⟨6, _⟩ => ⟨S64, .f32⟩
  | .hbm, ⟨7, _⟩ => ⟨S64x129, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S100000x64, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1, .i32⟩
  | .hbm, ⟨28, _⟩ => ⟨S_, .i32⟩
  | .hbm, ⟨29, _⟩ => ⟨S1000000x1, .i32⟩
  | .hbm, ⟨30, _⟩ => ⟨S1000000x1, .i1⟩
  | .hbm, ⟨31, _⟩ => ⟨S1x1, .i32⟩
  | .hbm, ⟨32, _⟩ => ⟨S1000000x1, .i32⟩
  | .hbm, ⟨33, _⟩ => ⟨S1000000x1, .i1⟩
  | .hbm, ⟨34, _⟩ => ⟨S1000000x1, .i1⟩
  | .hbm, ⟨35, _⟩ => ⟨S_, .i1⟩
  | .hbm, ⟨36, _⟩ => ⟨S1000000, .i1⟩
  | .hbm, ⟨37, _⟩ => ⟨S1000000x64, .f32⟩
  | .hbm, ⟨38, _⟩ => ⟨S1000000x64, .i1⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1, .i32⟩
  | .hbm, ⟨51, _⟩ => ⟨S_, .i32⟩
  | .hbm, ⟨52, _⟩ => ⟨S1000000x1, .i32⟩
  | .hbm, ⟨53, _⟩ => ⟨S1000000x1, .i1⟩
  | .hbm, ⟨54, _⟩ => ⟨S1x1, .i32⟩
  | .hbm, ⟨55, _⟩ => ⟨S1000000x1, .i32⟩
  | .hbm, ⟨56, _⟩ => ⟨S1000000x1, .i1⟩
  | .hbm, ⟨57, _⟩ => ⟨S1000000x1, .i1⟩
  | .hbm, ⟨58, _⟩ => ⟨S_, .i1⟩
  | .hbm, ⟨59, _⟩ => ⟨S1000000, .i1⟩
  | .hbm, ⟨60, _⟩ => ⟨S1000000x64, .f32⟩
  | .hbm, ⟨61, _⟩ => ⟨S1000000x64, .i1⟩
  | .hbm, ⟨62, _⟩ => ⟨S_, .f32⟩
  | .hbm, ⟨63, _⟩ => ⟨S1000000x64, .f32⟩
  | .hbm, ⟨64, _⟩ => ⟨S1000000x64, .f32⟩
  | .hbm, ⟨65, _⟩ => ⟨S64x64, .f32⟩
  | .hbm, ⟨66, _⟩ => ⟨S64x64, .f32⟩
  | .hbm, ⟨67, _⟩ => ⟨S64x1, .f32⟩
  | .hbm, ⟨68, _⟩ => ⟨S64, .f32⟩
  | .hbm, ⟨69, _⟩ => ⟨S1x64, .f32⟩
  | .hbm, ⟨70, _⟩ => ⟨S1x64, .f32⟩
  | .hbm, ⟨71, _⟩ => ⟨S1x1, .f32⟩
  | .hbm, ⟨72, _⟩ => ⟨S1000000x64, .f32⟩
  | .hbm, ⟨73, _⟩ => ⟨S_, .f32⟩
  | .hbm, ⟨74, _⟩ => ⟨S100000x64, .f32⟩
  | .hbm, ⟨75, _⟩ => ⟨S1000000x1, .i32⟩
  | .hbm, ⟨76, _⟩ => ⟨S100000x64, .f32⟩
  | .hbm, ⟨77, _⟩ => ⟨S1x64, .f32⟩
  | .hbm, ⟨78, _⟩ => ⟨S1x64, .f32⟩
  | .hbm, ⟨79, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S10000x1, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x1, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S64x64_p1_0_S64x64 : S64x64.Transposes [1, 0] S64x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S64x129_S64x64_0_0 : S64x129.Slices ![0, 0] S64x64
  slices_S64x129_S64x64_0_64 : S64x129.Slices ![0, 64] S64x64
  slices_S64x129_S64x1_0_128 : S64x129.Slices ![0, 128] S64x1
  shapeCasts_S64x1_S64 : S64x1.ShapeCasts S64
  shapeCasts_S1_S1x1 : S1.ShapeCasts S1x1
  shapeCasts_S10000x64_S10000x64 : S10000x64.ShapeCasts S10000x64
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  reduces_S10000x64_S10000 : S10000x64.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  bcast_S_S100000x64 : S_.BroadcastsInDim S100000x64 (![] : Fin 0 → Fin S100000x64.rank)
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S1000000x1.size a
  hwx1_2 : ∀ i : grid1.Coords, EltTy.bits .f32 = 32 ∨ (Rect.block (s := S1000000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S1000000x1.size a
  hwx1_3 : ∀ i : grid1.Coords, EltTy.bits .f32 = 32 ∨ (Rect.block (s := S1000000x1) S10000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x64.size a ≤ S1000000x64.size a
  hwx1_10 : ∀ i : grid1.Coords, EltTy.bits .f32 = 32 ∨ (Rect.block (s := S1000000x64) S10000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15) S10000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000x1 : Shape := ⟨2, ![1000000, 1]⟩
abbrev S2x1000000 : Shape := ⟨2, ![2, 1000000]⟩
abbrev S100000x1 : Shape := ⟨2, ![100000, 1]⟩
abbrev S64x64 : Shape := ⟨2, ![64, 64]⟩
abbrev S64 : Shape := ⟨1, ![64]⟩
abbrev S64x129 : Shape := ⟨2, ![64, 129]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x64 : Shape := ⟨2, ![1000000, 64]⟩
abbrev S1000000x129 : Shape := ⟨2, ![1000000, 129]⟩
abbrev S129x64 : Shape := ⟨2, ![129, 64]⟩
abbrev S64x1 : Shape := ⟨2, ![64, 1]⟩
abbrev S1x1 : Shape := ⟨2, ![1, 1]⟩
abbrev S100000 : Shape := ⟨1, ![100000]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x1, .f32⟩
  | .hbm, ⟨2, _⟩ => ⟨S2x1000000, .i32⟩
  | .hbm, ⟨3, _⟩ => ⟨S100000x1, .f32⟩
  | .hbm, ⟨4, _⟩ => ⟨S1000000x1, .f32⟩
  | .hbm, ⟨5, _⟩ => ⟨S64x64, .f32⟩
  | .hbm, ⟨6, _⟩ => ⟨S64, .f32⟩
  | .hbm, ⟨7, _⟩ => ⟨S64x129, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S1x1000000, .i32⟩
  | .hbm, ⟨19, _⟩ => ⟨S1000000, .i32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x64, .f32⟩
  | .hbm, ⟨40, _⟩ => ⟨S1000000x129, .f32⟩
  | .hbm, ⟨41, _⟩ => ⟨S129x64, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S_, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S64x1, .f32⟩
  | .hbm, ⟨56, _⟩ => ⟨S1000000x1, .f32⟩
  | .hbm, ⟨57, _⟩ => ⟨S1x1, .f32⟩
  | .hbm, ⟨58, _⟩ => ⟨S1000000x1, .f32⟩
  | .hbm, ⟨59, _⟩ => ⟨S1000000x1, .f32⟩
  | .hbm, ⟨60, _⟩ => ⟨S1000000x1, .f32⟩
  | .hbm, ⟨61, _⟩ => ⟨S1000000x1, .f32⟩
  | .hbm, ⟨62, _⟩ => ⟨S_, .f32⟩
  | .hbm, ⟨63, _⟩ => ⟨S1000000x1, .f32⟩
  | .hbm, ⟨64, _⟩ => ⟨S1000000x1, .f32⟩
  | .hbm, ⟨65, _⟩ => ⟨S_, .f32⟩
  | .hbm, ⟨66, _⟩ => ⟨S1000000x1, .f32⟩
  | .hbm, ⟨67, _⟩ => ⟨S1000000x1, .f32⟩
  | .hbm, ⟨68, _⟩ => ⟨S1000000x1, .f32⟩
  | .hbm, ⟨69, _⟩ => ⟨S1000000x64, .f32⟩
  | .hbm, ⟨70, _⟩ => ⟨S1000000x64, .f32⟩
  | .hbm, ⟨71, _⟩ => ⟨S_, .f32⟩
  | .hbm, ⟨72, _⟩ => ⟨S100000x64, .f32⟩
  | .hbm, ⟨73, _⟩ => ⟨S1000000x1, .i32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S_, .f32⟩
  | .hbm, ⟨92, _⟩ => ⟨S100000x1, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x1, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v74 : Ref sig .tc := ⟨.hbm, 116, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x1_S1000000x129_d1 : Shape.Concatenates [S1000000x64, S1000000x64, S1000000x1] S1000000x129 1
  transposes_S64x129_S129x64_1_0 : S64x129.Transposes [1, 0] S129x64
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x129_S129x64_S1000000x64_1_0_0_1_n_n_wf : DotDims.WF S1000000x129 S129x64 S1000000x64 [1] [0] [0] [1] [] []
  dot_S1000000x64_S64x1_S1000000x1_1_0_0_1_n_n_wf : DotDims.WF S1000000x64 S64x1 S1000000x1 [1] [0] [0] [1] [] []
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x129_S129x64_S1000000x64_1_0_0_1_n_n : DotDims S1000000x129 S129x64 S1000000x64 where
  lhsContracting := [1]
  rhsContracting := [0]
  lhsNonContracting := [0]
  rhsNonContracting := [1]
  lhsBatch := []
  rhsBatch := []
  wf := dot_S1000000x129_S129x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.RefRun.lean ====
/-
  The reference program's run, read back stretch by stretch. Its @main is a straight line of 104 host operations; cut
  into five stretches — the projection, the edge indices and the two row gathers, the attention weights up to the message
  array, the per-node sum with the residual, the normalisation — each stretch's result buffers are the read module's stage
  functions of the buffers the stretch finds, which are kept as variables, so no composed term grows: what a stretch
  leaves in a buffer is read from an ARBITRARY valuation, and the five readings are chained along the fold of the
  operations over the launch contents. No operation writes an argument.
-/
import proofs.«426974_j57655640981900_3_alg».proof.Proof.RefOps
import proofs.«426974_j57655640981900_3_alg».proof.Proof.RefRead

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

universe u

variable {F : FTy → Type} [FloatOps F]

/-- The fold of a line cut in two is the second part's fold over the first part's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A list cut at positions 5, 27, 58 and 66 is its five pieces in order. -/
theorem split5 {α : Type u} (l : List α) :
    l = l.take 5 ++ ((l.drop 5).take 22 ++ ((l.drop 27).take 31 ++ ((l.drop 58).take 8 ++ l.drop 66))) := by
  have h1 : l.drop 27 = (l.drop 5).drop 22 := by simp [List.drop_drop]
  have h2 : l.drop 58 = (l.drop 27).drop 31 := by simp [List.drop_drop]
  have h3 : l.drop 66 = (l.drop 58).drop 8 := by simp [List.drop_drop]
  rw [h3, List.take_append_drop, h2, List.take_append_drop, h1, List.take_append_drop, List.take_append_drop]

/-! ## The five stretches -/

/-- Operations 0–4: the projection. -/
abbrev opsA : List (HloOp τ sig (Elt F)) := (ops (F := F)).take 5
/-- Operations 5–26: the two edge rows, their indices moved up where negative, the two row gathers. -/
abbrev opsB : List (HloOp τ sig (Elt F)) := ((ops (F := F)).drop 5).take 22
/-- Operations 27–57: the concatenated rows against the attention weight, the activation, the attention weight, the messages. -/
abbrev opsC : List (HloOp τ sig (Elt F)) := ((ops (F := F)).drop 27).take 31
/-- Operations 58–65: the messages summed per node, divided by 100, the projected rows added. -/
abbrev opsD : List (HloOp τ sig (Elt F)) := ((ops (F := F)).drop 58).take 8
/-- Operations 66–103: the normalisation and the activation. -/
abbrev opsE : List (HloOp τ sig (Elt F)) := (ops (F := F)).drop 66

/-- @main's operations are the five stretches in order. -/
theorem ops_split : (ops : List (HloOp τ sig (Elt F))) = opsA ++ (opsB ++ (opsC ++ (opsD ++ opsE))) := split5 _

/-! ## What each stretch leaves, from any contents -/

section Stretches

variable (X : Valuation τ sig (Elt F))

theorem A_v4 : after opsA X (Proc.devRef .tc main_v4) = val_main_v4 (F := F) (X (Proc.devRef .tc main_arg0)) (X (Proc.devRef .tc main_arg5)) (X (Proc.devRef .tc main_arg6)) := by
  simp only [opsA, ops, List.take_succ_cons, List.take_zero, List.drop_succ_cons, List.drop_zero]; after_results <;> rfl
theorem A_keeps_arg1 : after opsA X (Proc.devRef .tc main_arg1) = X (Proc.devRef .tc main_arg1) := by
  simp only [opsA, ops, List.take_succ_cons, List.take_zero, List.drop_succ_cons, List.drop_zero]; after_results
theorem A_keeps_arg2 : after opsA X (Proc.devRef .tc main_arg2) = X (Proc.devRef .tc main_arg2) := by
  simp only [opsA, ops, List.take_succ_cons, List.take_zero, List.drop_succ_cons, List.drop_zero]; after_results
theorem A_keeps_arg4 : after opsA X (Proc.devRef .tc main_arg4) = X (Proc.devRef .tc main_arg4) := by
  simp only [opsA, ops, List.take_succ_cons, List.take_zero, List.drop_succ_cons, List.drop_zero]; after_results
theorem A_keeps_arg7 : after opsA X (Proc.devRef .tc main_arg7) = X (Proc.devRef .tc main_arg7) := by
  simp only [opsA, ops, List.take_succ_cons, List.take_zero, List.drop_succ_cons, List.drop_zero]; after_results
theorem A_keeps_arg8 : after opsA X (Proc.devRef .tc main_arg8) = X (Proc.devRef .tc main_arg8) := by
  simp only [opsA, ops, List.take_succ_cons, List.take_zero, List.drop_succ_cons, List.drop_zero]; after_results
theorem A_keeps_arg9 : after opsA X (Proc.devRef .tc main_arg9) = X (Proc.devRef .tc main_arg9) := by
  simp only [opsA, ops, List.take_succ_cons, List.take_zero, List.drop_succ_cons, List.drop_zero]; after_results
theorem A_keeps_arg10 : after opsA X (Proc.devRef .tc main_arg10) = X (Proc.devRef .tc main_arg10) := by
  simp only [opsA, ops, List.take_succ_cons, List.take_zero, List.drop_succ_cons, List.drop_zero]; after_results
theorem A_keeps_arg11 : after opsA X (Proc.devRef .tc main_arg11) = X (Proc.devRef .tc main_arg11) := by
  simp only [opsA, ops, List.take_succ_cons, List.take_zero, List.drop_succ_cons, List.drop_zero]; after_results
theorem A_keeps_arg12 : after opsA X (Proc.devRef .tc main_arg12) = X (Proc.devRef .tc main_arg12) := by
  simp only [opsA, ops, List.take_succ_cons, List.take_zero, List.drop_succ_cons, List.drop_zero]; after_results

theorem B_v6 : after opsB X (Proc.devRef .tc main_v6) = val_main_v6 (F := F) (X (Proc.devRef .tc main_arg2)) := by
  simp only [opsB, ops, List.take_succ_cons, List.take_zero, List.drop_succ_cons, List.drop_zero]; after_results_simp <;> rfl
theorem B_v15 (x0 : (⟨S100000x64, .f32⟩ : BufTy).Contents (Elt F)) (x5 : (⟨S64x64, .f32⟩ : BufTy).Contents (Elt F)) (x6 : (⟨S64, .f32⟩ : BufTy).Contents (Elt F))
    (h4 : X (Proc.devRef .tc main_v4) = val_main_v4 (F := F) x0 x5 x6) :
    after opsB X (Proc.devRef .tc main_v15) = val_main_v15 (F := F) x0 (X (Proc.devRef .tc main_arg2)) x5 x6 := by
  simp only [opsB, ops, List.take_succ_cons, List.take_zero, List.drop_succ_cons, List.drop_zero]; after_results_simp; rw [h4]; rfl
theorem B_v22 (x0 : (⟨S100000x64, .f32⟩ : BufTy).Contents (Elt F)) (x5 : (⟨S64x64, .f32⟩ : BufTy).Contents (Elt F)) (x6 : (⟨S64, .f32⟩ : BufTy).Contents (Elt F))
    (h4 : X (Proc.devRef .tc main_v4) = val_main_v4 (F := F) x0 x5 x6) :
    after opsB X (Proc.devRef .tc main_v22) = val_main_v22 (F := F) x0 (X (Proc.devRef .tc main_arg2)) x5 x6 := by
  simp only [opsB, ops, List.take_succ_cons, List.take_zero, List.drop_succ_cons, List.drop_zero]; after_results_simp; rw [h4]; rfl
theorem B_keeps_v4 : after opsB X (Proc.devRef .tc main_v4) = X (Proc.devRef .tc main_v4) := by
  simp only [opsB, ops, List.take_succ_cons, List.take_zero, List.drop_succ_cons, List.drop_zero]; after_results_simp <;> rfl
theorem B_keeps_arg1 : after opsB X (Proc.devRef .tc main_arg1) = X (Proc.devRef .tc main_arg1) := by
  simp only [opsB, ops, List.take_succ_cons, List.take_zero, List.drop_succ_cons, List.drop_zero]; after_results_simp <;> rfl
theorem B_keeps_arg4 : after opsB X (Proc.devRef .tc main_arg4) = X (Proc.devRef .tc main_arg4) := by
  simp only [opsB, ops, List.take_succ_cons, List.take_zero, List.drop_succ_cons, List.drop_zero]; after_results_simp <;> rfl
theorem B_keeps_arg7 : after opsB X (Proc.devRef .tc main_arg7) = X (Proc.devRef .tc main_arg7) := by
  simp only [opsB, ops, List.take_succ_cons, List.take_zero, List.drop_succ_cons, List.drop_zero]; after_results_simp <;> rfl
theorem B_keeps_arg8 : after opsB X (Proc.devRef .tc main_arg8) = X (Proc.devRef .tc main_arg8) := by
  simp only [opsB, ops, List.take_succ_cons, List.take_zero, List.drop_succ_cons, List.drop_zero]; after_results_simp <;> rfl
theorem B_keeps_arg9 : after opsB X (Proc.devRef .tc main_arg9) = X (Proc.devRef .tc main_arg9) := by
  simp only [opsB, ops, List.take_succ_cons, List.take_zero, List.drop_succ_cons, List.drop_zero]; after_results_simp <;> rfl
theorem B_keeps_arg10 : after opsB X (Proc.devRef .tc main_arg10) = X (Proc.devRef .tc main_arg10) := by
  simp only [opsB, ops, List.take_succ_cons, List.take_zero, List.drop_succ_cons, List.drop_zero]; after_results_simp <;> rfl
theorem B_keeps_arg11 : after opsB X (Proc.devRef .tc main_arg11) = X (Proc.devRef .tc main_arg11) := by
  simp only [opsB, ops, List.take_succ_cons, List.take_zero, List.drop_succ_cons, List.drop_zero]; after_results_simp <;> rfl
theorem B_keeps_arg12 : after opsB X (Proc.devRef .tc main_arg12) = X (Proc.devRef .tc main_arg12) := by
  simp only [opsB, ops, List.take_succ_cons, List.take_zero, List.drop_succ_cons, List.drop_zero]; after_results_simp <;> rfl

theorem C_v43 (x0 : (⟨S100000x64, .f32⟩ : BufTy).Contents (Elt F)) (x2 : (⟨S2x1000000, .i32⟩ : BufTy).Contents (Elt F)) (x5 : (⟨S64x64, .f32⟩ : BufTy).Contents (Elt F)) (x6 : (⟨S64, .f32⟩ : BufTy).Contents (Elt F))
    (h15 : X (Proc.devRef .tc main_v15) = val_main_v15 (F := F) x0 x2 x5 x6) (h22 : X (Proc.devRef .tc main_v22) = val_main_v22 (F := F) x0 x2 x5 x6) :
    after opsC X (Proc.devRef .tc main_v43) = val_main_v43 (F := F) x0 (X (Proc.devRef .tc main_arg1)) x2 (X (Proc.devRef .tc main_arg4)) x5 x6 (X (Proc.devRef .tc main_arg7)) (X (Proc.devRef .tc main_arg8)) (X (Proc.devRef .tc main_arg9)) (X (Proc.devRef .tc main_arg10)) := by
  simp only [opsC, ops, List.take_succ_cons, List.take_zero, List.drop_succ_cons, List.drop_zero]; after_results_simp
  dsimp only [Matrix.cons_val_zero, Matrix.cons_val_one, Matrix.head_cons]
  rw [h15, h22]
  rfl
theorem C_keeps_v4 : after opsC X (Proc.devRef .tc main_v4) = X (Proc.devRef .tc main_v4) := by
  simp only [opsC, ops, List.take_succ_cons, List.take_zero, List.drop_succ_cons, List.drop_zero]; after_results_simp <;> rfl
theorem C_keeps_v6 : after opsC X (Proc.devRef .tc main_v6) = X (Proc.devRef .tc main_v6) := by
  simp only [opsC, ops, List.take_succ_cons, List.take_zero, List.drop_succ_cons, List.drop_zero]; after_results_simp <;> rfl
theorem C_keeps_arg11 : after opsC X (Proc.devRef .tc main_arg11) = X (Proc.devRef .tc main_arg11) := by
  simp only [opsC, ops, List.take_succ_cons, List.take_zero, List.drop_succ_cons, List.drop_zero]; after_results_simp <;> rfl
theorem C_keeps_arg12 : after opsC X (Proc.devRef .tc main_arg12) = X (Proc.devRef .tc main_arg12) := by
  simp only [opsC, ops, List.take_succ_cons, List.take_zero, List.drop_succ_cons, List.drop_zero]; after_results_simp <;> rfl

theorem D_v49 (x0 : (⟨S100000x64, .f32⟩ : BufTy).Contents (Elt F)) (x1 : (⟨S1000000x1, .f32⟩ : BufTy).Contents (Elt F)) (x2 : (⟨S2x1000000, .i32⟩ : BufTy).Contents (Elt F)) (x4 : (⟨S1000000x1, .f32⟩ : BufTy).Contents (Elt F)) (x5 : (⟨S64x64, .f32⟩ : BufTy).Contents (Elt F)) (x6 : (⟨S64, .f32⟩ : BufTy).Contents (Elt F)) (x7 : (⟨S64x129, .f32⟩ : BufTy).Contents (Elt F)) (x8 : (⟨S64, .f32⟩ : BufTy).Contents (Elt F)) (x9 : (⟨S1x64, .f32⟩ : BufTy).Contents (Elt F)) (x10 : (⟨S1, .f32⟩ : BufTy).Contents (Elt F))
    (h43 : X (Proc.devRef .tc main_v43) = val_main_v43 (F := F) x0 x1 x2 x4 x5 x6 x7 x8 x9 x10) (h6 : X (Proc.devRef .tc main_v6) = val_main_v6 (F := F) x2)
    (h4 : X (Proc.devRef .tc main_v4) = val_main_v4 (F := F) x0 x5 x6) :
    after opsD X (Proc.devRef .tc main_v49) = val_main_v49 (F := F) x0 x1 x2 x4 x5 x6 x7 x8 x9 x10 := by
  simp only [opsD, ops, List.take_succ_cons, List.take_zero, List.drop_succ_cons, List.drop_zero]; after_results; rw [h43, h6, h4]; rfl
theorem D_keeps_arg11 : after opsD X (Proc.devRef .tc main_arg11) = X (Proc.devRef .tc main_arg11) := by
  simp only [opsD, ops, List.take_succ_cons, List.take_zero, List.drop_succ_cons, List.drop_zero]; after_results
theorem D_keeps_arg12 : after opsD X (Proc.devRef .tc main_arg12) = X (Proc.devRef .tc main_arg12) := by
  simp only [opsD, ops, List.take_succ_cons, List.take_zero, List.drop_succ_cons, List.drop_zero]; after_results

theorem E_v74 (x0 : (⟨S100000x64, .f32⟩ : BufTy).Contents (Elt F)) (x1 : (⟨S1000000x1, .f32⟩ : BufTy).Contents (Elt F)) (x2 : (⟨S2x1000000, .i32⟩ : BufTy).Contents (Elt F)) (x4 : (⟨S1000000x1, .f32⟩ : BufTy).Contents (Elt F)) (x5 : (⟨S64x64, .f32⟩ : BufTy).Contents (Elt F)) (x6 : (⟨S64, .f32⟩ : BufTy).Contents (Elt F)) (x7 : (⟨S64x129, .f32⟩ : BufTy).Contents (Elt F)) (x8 : (⟨S64, .f32⟩ : BufTy).Contents (Elt F)) (x9 : (⟨S1x64, .f32⟩ : BufTy).Contents (Elt F)) (x10 : (⟨S1, .f32⟩ : BufTy).Contents (Elt F))
    (h49 : X (Proc.devRef .tc main_v49) = val_main_v49 (F := F) x0 x1 x2 x4 x5 x6 x7 x8 x9 x10) :
    after opsE X (Proc.devRef .tc main_v74) = val_main_v74 (F := F) x0 x1 x2 x4 x5 x6 x7 x8 x9 x10 (X (Proc.devRef .tc main_arg11)) (X (Proc.devRef .tc main_arg12)) := by
  simp only [opsE, ops, List.take_succ_cons, List.take_zero, List.drop_succ_cons, List.drop_zero]; after_results_simp; rw [h49]; rfl

end Stretches

/-! ## The whole line -/

/-- After the whole line the result buffer holds the last stage function of the launch contents of the arguments. -/
theorem result_after (V : Valuation τ sig (Elt F)) :
    after ops V (Proc.devRef .tc main_v74)
      = val_main_v74 (F := F) (V (Proc.devRef .tc main_arg0)) (V (Proc.devRef .tc main_arg1)) (V (Proc.devRef .tc main_arg2)) (V (Proc.devRef .tc main_arg4)) (V (Proc.devRef .tc main_arg5))
          (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_append, after_append, after_append, after_append]
  have a4 := A_v4 V
  have b6 : after opsB (after opsA V) (Proc.devRef .tc main_v6) = val_main_v6 (F := F) (V (Proc.devRef .tc main_arg2)) := by
    rw [B_v6, A_keeps_arg2]
  have b15 : after opsB (after opsA V) (Proc.devRef .tc main_v15) = val_main_v15 (F := F) (V (Proc.devRef .tc main_arg0)) (V (Proc.devRef .tc main_arg2)) (V (Proc.devRef .tc main_arg5)) (V (Proc.devRef .tc main_arg6)) := by
    rw [B_v15 _ _ _ _ a4, A_keeps_arg2]
  have b22 : after opsB (after opsA V) (Proc.devRef .tc main_v22) = val_main_v22 (F := F) (V (Proc.devRef .tc main_arg0)) (V (Proc.devRef .tc main_arg2)) (V (Proc.devRef .tc main_arg5)) (V (Proc.devRef .tc main_arg6)) := by
    rw [B_v22 _ _ _ _ a4, A_keeps_arg2]
  have b4 : after opsB (after opsA V) (Proc.devRef .tc main_v4) = val_main_v4 (F := F) (V (Proc.devRef .tc main_arg0)) (V (Proc.devRef .tc main_arg5)) (V (Proc.devRef .tc main_arg6)) := by
    rw [B_keeps_v4, a4]
  have c43 : after opsC (after opsB (after opsA V)) (Proc.devRef .tc main_v43)
      = val_main_v43 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
    rw [C_v43 _ _ _ _ _ b15 b22, B_keeps_arg1, B_keeps_arg4, B_keeps_arg7, B_keeps_arg8, B_keeps_arg9, B_keeps_arg10,
      A_keeps_arg1, A_keeps_arg4, A_keeps_arg7, A_keeps_arg8, A_keeps_arg9, A_keeps_arg10]
  have c6 : after opsC (after opsB (after opsA V)) (Proc.devRef .tc main_v6) = val_main_v6 (F := F) (V (Proc.devRef .tc main_arg2)) := by
    rw [C_keeps_v6, b6]
  have c4 : after opsC (after opsB (after opsA V)) (Proc.devRef .tc main_v4) = val_main_v4 (F := F) (V (Proc.devRef .tc main_arg0)) (V (Proc.devRef .tc main_arg5)) (V (Proc.devRef .tc main_arg6)) := by
    rw [C_keeps_v4, b4]
  have d49 := D_v49 (after opsC (after opsB (after opsA V))) _ _ _ _ _ _ _ _ _ _ c43 c6 c4
  rw [E_v74 _ _ _ _ _ _ _ _ _ _ _ d49, D_keeps_arg11, D_keeps_arg12, C_keeps_arg11, C_keeps_arg12, B_keeps_arg11, B_keeps_arg12,
    A_keeps_arg11, A_keeps_arg12]

/-! ## No operation writes an argument -/

set_option maxRecDepth 8192 in
set_option maxHeartbeats 4000000 in
theorem kept_arg0 (V : Valuation τ sig (Elt F)) : after ops V (Proc.devRef .tc main_arg0) = V (Proc.devRef .tc main_arg0) := by
  after_results_simp <;> rfl
set_option maxRecDepth 8192 in
set_option maxHeartbeats 4000000 in
theorem kept_arg1 (V : Valuation τ sig (Elt F)) : after ops V (Proc.devRef .tc main_arg1) = V (Proc.devRef .tc main_arg1) := by
  after_results_simp <;> rfl
set_option maxRecDepth 8192 in
set_option maxHeartbeats 4000000 in
theorem kept_arg2 (V : Valuation τ sig (Elt F)) : after ops V (Proc.devRef .tc main_arg2) = V (Proc.devRef .tc main_arg2) := by
  after_results_simp <;> rfl
set_option maxRecDepth 8192 in
set_option maxHeartbeats 4000000 in
theorem kept_arg3 (V : Valuation τ sig (Elt F)) : after ops V (Proc.devRef .tc main_arg3) = V (Proc.devRef .tc main_arg3) := by
  after_results_simp <;> rfl
set_option maxRecDepth 8192 in
set_option maxHeartbeats 4000000 in
theorem kept_arg4 (V : Valuation τ sig (Elt F)) : after ops V (Proc.devRef .tc main_arg4) = V (Proc.devRef .tc main_arg4) := by
  after_results_simp <;> rfl
set_option maxRecDepth 8192 in
set_option maxHeartbeats 4000000 in
theorem kept_arg5 (V : Valuation τ sig (Elt F)) : after ops V (Proc.devRef .tc main_arg5) = V (Proc.devRef .tc main_arg5) := by
  after_results_simp <;> rfl
set_option maxRecDepth 8192 in
set_option maxHeartbeats 4000000 in
theorem kept_arg6 (V : Valuation τ sig (Elt F)) : after ops V (Proc.devRef .tc main_arg6) = V (Proc.devRef .tc main_arg6) := by
  after_results_simp <;> rfl
set_option maxRecDepth 8192 in
set_option maxHeartbeats 4000000 in
theorem kept_arg7 (V : Valuation τ sig (Elt F)) : after ops V (Proc.devRef .tc main_arg7) = V (Proc.devRef .tc main_arg7) := by
  after_results_simp <;> rfl
set_option maxRecDepth 8192 in
set_option maxHeartbeats 4000000 in
theorem kept_arg8 (V : Valuation τ sig (Elt F)) : after ops V (Proc.devRef .tc main_arg8) = V (Proc.devRef .tc main_arg8) := by
  after_results_simp <;> rfl
set_option maxRecDepth 8192 in
set_option maxHeartbeats 4000000 in
theorem kept_arg9 (V : Valuation τ sig (Elt F)) : after ops V (Proc.devRef .tc main_arg9) = V (Proc.devRef .tc main_arg9) := by
  after_results_simp <;> rfl
set_option maxRecDepth 8192 in
set_option maxHeartbeats 4000000 in
theorem kept_arg10 (V : Valuation τ sig (Elt F)) : after ops V (Proc.devRef .tc main_arg10) = V (Proc.devRef .tc main_arg10) := by
  after_results_simp <;> rfl
set_option maxRecDepth 8192 in
set_option maxHeartbeats 4000000 in
theorem kept_arg11 (V : Valuation τ sig (Elt F)) : after ops V (Proc.devRef .tc main_arg11) = V (Proc.devRef .tc main_arg11) := by
  after_results_simp <;> rfl
set_option maxRecDepth 8192 in
set_option maxHeartbeats 4000000 in
theorem kept_arg12 (V : Valuation τ sig (Elt F)) : after ops V (Proc.devRef .tc main_arg12) = V (Proc.devRef .tc main_arg12) := by
  after_results_simp <;> rfl

/-- On every device, from any memory with zero counters: every weakly fair execution of @main terminates, the result buffer
    holds the last stage function of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
          = val_main_v74 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v74).trans (result_after (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c))⟩)
    (run_seq scopedRefs_eq scopedSems_eq defs main (fun _ => ops) main_eq (fun _ => ops_sub) m ρ)

end Cert.ReferenceIdeal.RunP

end
-- ==== Proof.TakeInRange.lean ====
/- Node indices in range: what the precondition says of the edge list, and that under it the filled row gather of the
   kernel's program is the plain row gather. -/
import proofs.«426974_j57655640981900_3_alg».proof.Defs
import proofs.«426974_j57655640981900_3_alg».proof.Proof.Gen.KernelIdeal
import proofs.«426974_j57655640981900_3_alg».proof.Proof.Gen.Pre_finite_inputs
import Idealize.ShloMosaic.Lib.ValueIdx
import Idealize.ShloMosaic.Lib.ValueLayout
import Idealize.ShloMosaic.Lib.ReduceAll
import Idealize.ShloMosaic.Lib.StableHlo.Predicate
import Idealize.ShloMosaic.Lib.WordArith

set_option maxRecDepth 16384

noncomputable section

open Idealize.ShloMosaic Idealize.ShloMosaic.TcCoe Idealize.SL.Sem
open Idealize.ShloMosaic.ValueIdx

namespace Cert.KernelIdeal.Take

open Cert.KernelIdeal Cert.KernelIdeal.Gen

/-- The row indices as the row gather takes them: a negative index moved up by the row count, then made a column. -/
abbrev wrapIdx (row : IVec S1000000 32) : IVec S1000000x1 32 :=
  broadcastInDim S1000000x1 ![0] bcast_S1000000_S1000000x1_0
    (select (cmpi .slt row (broadcastInDim S1000000 ![] bcast_S_S1000000 (constantI S_ 32 0#32)))
      (addi row (broadcastInDim S1000000 ![] bcast_S_S1000000 (constantI S_ 32 100000#32))) row)

/-- Per edge: is the moved index a row number of the table? -/
abbrev inRangeMask (row : IVec S1000000 32) : IVec S1000000 1 :=
  Host.reduce IntOp.andi
    (andi (cmpi .sge (wrapIdx row) (broadcastInDim S1000000x1 ![] bcast_S_S1000000x1 (constantI S_ 32 0#32)))
      (cmpi .sle (wrapIdx row) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The filled row gather: the gathered row where the index is a row number, the fill pattern elsewhere. -/
abbrev takeTerm {F : FTy → Type} [FloatOps F] (x : FVec F S100000x64 .f32) (row : IVec S1000000 32) : FVec F S1000000x64 .f32 :=
  select (broadcastInDim S1000000x64 ![0] bcast_S1000000_S1000000x64_0 (inRangeMask row))
    (Host.gather gather_S100000x64_S1000000x1_S1000000x64_1_0_n_n_0_1_164 x (wrapIdx row))
    (broadcastInDim S1000000x64 ![] bcast_S_S1000000x64 (constant S_ .f32 0x7FC00000#32))

/-! ## Words: the three signed compares the gather makes, on an index in range -/

/-- A non-negative word is not below zero. -/
theorem slt_zero_of_nonneg (w : BitVec 32) (h : 0 ≤ w.toInt) : IntOp.cmpi .slt w 0#32 = 0#1 := by
  have h0 : (0#32 : BitVec 32).toInt = 0 := by decide
  have hb : w.slt 0#32 = false := by
    rw [Bool.eq_false_iff]; intro hc; rw [BitVec.slt_iff_toInt_lt, h0] at hc; omega
  show BitVec.ofBool (w.slt 0#32) = 0#1
  rw [hb]; rfl

/-- A non-negative word is at least zero. -/
theorem sge_zero_of_nonneg (w : BitVec 32) (h : 0 ≤ w.toInt) : IntOp.cmpi .sge w 0#32 = 1#1 := by
  have h0 : (0#32 : BitVec 32).toInt = 0 := by decide
  have hb : (0#32 : BitVec 32).sle w = true := by rw [BitVec.sle_iff_toInt_le, h0]; exact h
  show BitVec.ofBool ((0#32 : BitVec 32).sle w) = 1#1
  rw [hb]; rfl

/-- A word below the row count is at most the last row number. -/
theorem sle_last_of_lt (w : BitVec 32) (h : w.toInt < 100000) : IntOp.cmpi .sle w 99999#32 = 1#1 := by
  have h9 : (99999#32 : BitVec 32).toInt = 99999 := by decide
  have hb : w.sle 99999#32 = true := by rw [BitVec.sle_iff_toInt_le, h9]; omega
  show BitVec.ofBool (w.sle 99999#32) = 1#1
  rw [hb]; rfl

/-- A left fold by and, from 1, over words that are all 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1) (f a) = 1#1 := by rw [hf a]; decide
    rw [List.foldl_cons, e]; exact foldl_andi_one f hf l

/-! ## The moved index and the mask, read at an edge -/

/-- At an edge whose index is non-negative the moved index is the index. -/
theorem wrapIdx_apply (row : IVec S1000000 32) (e : Fin 1000000) (z : Fin 1) (h : 0 ≤ (row (ix1 e)).toInt) :
    wrapIdx row (ix2 e z) = row (ix1 e) := by
  refine (broadcastInDim_apply _ _ _ (ix2 e z) (ix1 e) (fun a => match a with | ⟨0, _⟩ => rfl)).trans ?_
  rw [select_apply]
  have hc : cmpi .slt row (broadcastInDim S1000000 ![] bcast_S_S1000000 (constantI S_ 32 0#32)) (ix1 e) = 0#1 :=
    slt_zero_of_nonneg _ h
  rw [hc, select_zero]

/-- With every index a row number the test holds at every edge. -/
theorem inRangeMask_eq_one (row : IVec S1000000 32)
    (hr : ∀ e : S1000000.Idx, 0 ≤ (row e).toInt ∧ (row e).toInt < 100000) (j : S1000000.Idx) :
    inRangeMask row j = 1#1 := by
  unfold inRangeMask
  rw [Host.reduce_eq_foldl]
  refine foldl_andi_one _ (fun i => ?_) _
  obtain ⟨e, z, rfl⟩ : ∃ (e : Fin 1000000) (z : Fin 1), i = ix2 e z := ⟨i 0, i 1, eq_ix2 i⟩
  obtain ⟨h0, h1⟩ := hr (ix1 e)
  show IntOp.andi (IntOp.cmpi .sge (wrapIdx row (ix2 e z)) 0#32) (IntOp.cmpi .sle (wrapIdx row (ix2 e z)) 99999#32) = 1#1
  rw [wrapIdx_apply row e z h0, sge_zero_of_nonneg _ h0, sle_last_of_lt _ h1]; decide

/-- With every index a row number, nothing is filled. -/
theorem takeTerm_eq_gather {F : FTy → Type} [FloatOps F] (x : FVec F S100000x64 .f32) (row : IVec S1000000 32)
    (hr : ∀ e : S1000000.Idx, 0 ≤ (row e).toInt ∧ (row e).toInt < 100000) :
    takeTerm x row = Host.gather gather_S100000x64_S1000000x1_S1000000x64_1_0_n_n_0_1_164 x (wrapIdx row) := by
  funext j
  obtain ⟨e, k, rfl⟩ : ∃ (e : Fin 1000000) (k : Fin 64), j = ix2 e k := ⟨j 0, j 1, eq_ix2 j⟩
  unfold takeTerm
  rw [select_apply]
  have hm : broadcastInDim S1000000x64 ![0] bcast_S1000000_S1000000x64_0 (inRangeMask row) (ix2 e k) = 1#1 :=
    (broadcastInDim_apply _ _ _ (ix2 e k) (ix1 e) (fun a => match a with | ⟨0, _⟩ => rfl)).trans
      (inRangeMask_eq_one row hr (ix1 e))
  rw [hm, select_one]

/-! ## The precondition's two conjuncts on the edge list -/

/-- The precondition's two conjuncts on the edge list: every entry is a node number. -/
theorem edges_in_range {F : FTy → Type} [FloatOps F] (a0 : FVec F S100000x64 .f32) (a1 : FVec F S1000000x1 .f32)
    (a2 : IVec S2x1000000 32) (a3 : FVec F S100000x1 .f32) (a4 : FVec F S1000000x1 .f32) (a5 : FVec F S64x64 .f32)
    (a6 : FVec F S64 .f32) (a7 : FVec F S64x129 .f32) (a8 : FVec F S64 .f32) (a9 : FVec F S1x64 .f32) (a10 : FVec F S1 .f32)
    (a11 a12 : FVec F S64 .f32)
    (h : Cert.Pre_finite_inputs.fn (F := F) a0 a1 a2 a3 a4 a5 a6 a7 a8 a9 a10 a11 a12 = (fun _ => 1#1)) :
    ∀ i : S2x1000000.Idx, 0 ≤ (a2 i).toInt ∧ (a2 i).toInt < 100000 := by
  have e := congrFun h ix0
  -- the precondition is the and of its conjuncts in order: the last two are the two range tests on the edge list,
  -- p the and of all the earlier ones
  obtain ⟨p, hp⟩ : ∃ p : BitVec 1, Cert.Pre_finite_inputs.fn (F := F) a0 a1 a2 a3 a4 a5 a6 a7 a8 a9 a10 a11 a12 ix0
      = IntOp.andi (IntOp.andi p
          (Host.reduce IntOp.andi (cmpi .sge a2 (broadcastInDim S2x1000000 ![] Cert.Pre_finite_inputs.Gen.bcast_S_S2x1000000 (constantI S_ 32 0#32)))
            (constantI S_ 1 1#1) Cert.Pre_finite_inputs.Gen.reducesTo_S2x1000000_S_d0_1 Cert.Pre_finite_inputs.Gen.h_S_ ix0))
          (Host.reduce IntOp.andi (cmpi .slt a2 (broadcastInDim S2x1000000 ![] Cert.Pre_finite_inputs.Gen.bcast_S_S2x1000000 (constantI S_ 32 100000#32)))
            (constantI S_ 1 1#1) Cert.Pre_finite_inputs.Gen.reducesTo_S2x1000000_S_d0_1 Cert.Pre_finite_inputs.Gen.h_S_ ix0) := ⟨_, rfl⟩
  rw [hp] at e
  obtain ⟨e1, elt⟩ := IntOp.andi_eq_one.1 e
  obtain ⟨-, ege⟩ := IntOp.andi_eq_one.1 e1
  intro i
  -- the rank-0 result has one index, so each and-reduce runs over every entry of the edge list
  haveI : Subsingleton S_.Idx := ⟨fun a b => funext fun d => d.elim0⟩
  have hge := Host.reduce_andi_all _ _ _ _ _ ege i
  have hlt := Host.reduce_andi_all _ _ _ _ _ elt i
  have h0 : (0#32 : BitVec 32).toInt = 0 := by decide
  have h1 : (100000#32 : BitVec 32).toInt = 100000 := by decide
  constructor
  · have hb : (0#32 : BitVec 32).sle (a2 i) = true :=
      (Idealize.ShloMosaic.WordArith.ofBool_eq_one_iff _).1 hge
    rw [BitVec.sle_iff_toInt_le, h0] at hb; exact hb
  · have hb : (a2 i).slt 100000#32 = true :=
      (Idealize.ShloMosaic.WordArith.ofBool_eq_one_iff _).1 hlt
    rw [BitVec.slt_iff_toInt_lt, h1] at hb; exact hb

end Cert.KernelIdeal.Take

end
-- ==== Proof.HostStretches.lean ====
/-
  The kernel program's host operations between its three launches, read as values: what every buffer a launch reads
  holds, in terms of the launch memory and of the earlier launches' result arrays.

  Before the projection: the bias vector made a row. Between the projection and the attention kernel: the two rows of
  the edge list cut out and flattened, the projected rows gathered twice by them (negative indices moved up, out-of-range
  rows filled), the three column bands of the attention weight cut out, and the small vectors made rows. Between the
  attention kernel and the normalisation: the messages summed per source node into a zero array (a scatter-add by the
  first edge row), the scale and shift made rows. No operation writes an argument, and the projected array is not written
  again after its launch.
-/
import proofs.«426974_j57655640981900_3_alg».proof.Proof.Gen.KernelIdeal.Frame
import proofs.«426974_j57655640981900_3_alg».proof.Proof.TakeInRange
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.HostVal

open Cert.KernelIdeal Cert.KernelIdeal.Gen

variable {F : FTy → Type} [FloatOps F] [Named F]
variable (m : (ℓ : Loc nD τ sig) → Buf (Elt F) ℓ) (ρ : Dev nD → PrngReg)

/-! ## Before the projection -/

theorem W1_arg0 (c : Dev nD) : W1 m ρ c (Proc.devRef .tc main_arg0) = m ((c : Thread nD τ).loc main_arg0) := by
  dsimp only [W1, hostOps0]; after_results
theorem W1_arg5 (c : Dev nD) : W1 m ρ c (Proc.devRef .tc main_arg5) = m ((c : Thread nD τ).loc main_arg5) := by
  dsimp only [W1, hostOps0]; after_results
/-- The bias as a row. -/
theorem W1_v0 (c : Dev nD) :
    W1 m ρ c (Proc.devRef .tc main_v0) = shapeCast _ (m ((c : Thread nD τ).loc main_arg6)) shapeCasts_S64_S1x64 := by
  dsimp only [W1, hostOps0]; after_results <;> rfl

/-! ## After the projection: its result array, and the arguments it does not touch -/

theorem W2_v1 (c : Dev nD) : W2 m ρ c (Proc.devRef .tc main_v1) = (dat0 (V1 m ρ) c).arrAt 3 cfg0.N := W2_arr m ρ c 3

theorem W2_arg1 (c : Dev nD) : W2 m ρ c (Proc.devRef .tc main_arg1) = m ((c : Thread nD τ).loc main_arg1) := by
  rw [W2_of_ne m ρ c main_arg1 (by decide)]; dsimp only [W1, hostOps0]; after_results
theorem W2_arg2 (c : Dev nD) : W2 m ρ c (Proc.devRef .tc main_arg2) = m ((c : Thread nD τ).loc main_arg2) := by
  rw [W2_of_ne m ρ c main_arg2 (by decide)]; dsimp only [W1, hostOps0]; after_results
theorem W2_arg4 (c : Dev nD) : W2 m ρ c (Proc.devRef .tc main_arg4) = m ((c : Thread nD τ).loc main_arg4) := by
  rw [W2_of_ne m ρ c main_arg4 (by decide)]; dsimp only [W1, hostOps0]; after_results
theorem W2_arg7 (c : Dev nD) : W2 m ρ c (Proc.devRef .tc main_arg7) = m ((c : Thread nD τ).loc main_arg7) := by
  rw [W2_of_ne m ρ c main_arg7 (by decide)]; dsimp only [W1, hostOps0]; after_results
theorem W2_arg8 (c : Dev nD) : W2 m ρ c (Proc.devRef .tc main_arg8) = m ((c : Thread nD τ).loc main_arg8) := by
  rw [W2_of_ne m ρ c main_arg8 (by decide)]; dsimp only [W1, hostOps0]; after_results
theorem W2_arg9 (c : Dev nD) : W2 m ρ c (Proc.devRef .tc main_arg9) = m ((c : Thread nD τ).loc main_arg9) := by
  rw [W2_of_ne m ρ c main_arg9 (by decide)]; dsimp only [W1, hostOps0]; after_results
theorem W2_arg10 (c : Dev nD) : W2 m ρ c (Proc.devRef .tc main_arg10) = m ((c : Thread nD τ).loc main_arg10) := by
  rw [W2_of_ne m ρ c main_arg10 (by decide)]; dsimp only [W1, hostOps0]; after_results
theorem W2_arg11 (c : Dev nD) : W2 m ρ c (Proc.devRef .tc main_arg11) = m ((c : Thread nD τ).loc main_arg11) := by
  rw [W2_of_ne m ρ c main_arg11 (by decide)]; dsimp only [W1, hostOps0]; after_results
theorem W2_arg12 (c : Dev nD) : W2 m ρ c (Proc.devRef .tc main_arg12) = m ((c : Thread nD τ).loc main_arg12) := by
  rw [W2_of_ne m ρ c main_arg12 (by decide)]; dsimp only [W1, hostOps0]; after_results

/-! ## Before the attention kernel -/

/-- Row `r` of the edge list, flattened. -/
abbrev edgeRow0 (c : Dev nD) : IVec S1000000 32 :=
  shapeCast _ (extractStridedSlice S1x1000000 ![0, 0] (W2 m ρ c (Proc.devRef .tc main_arg2)) slices_S2x1000000_S1x1000000_0_0) shapeCasts_S1x1000000_S1000000
abbrev edgeRow1 (c : Dev nD) : IVec S1000000 32 :=
  shapeCast _ (extractStridedSlice S1x1000000 ![1, 0] (W2 m ρ c (Proc.devRef .tc main_arg2)) slices_S2x1000000_S1x1000000_1_0) shapeCasts_S1x1000000_S1000000

/-! The two row gathers, each read from ARBITRARY contents of the buffers its stretch finds (the table and the index
    vector stay atoms), and the stretches that do not touch their results. -/

/-- The fold of a line cut in two is the second part's fold over the first part's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! Each filled row gather is cut after its nineteenth operation: up to there the in-range test and the plain gather,
    from there the fill and the choice between the two. -/

theorem maskAll0_of (X : Valuation τ sig (Elt F)) :
    after hostOps1_1 X (Proc.devRef .tc main_call0_v12) = Cert.KernelIdeal.Take.inRangeMask (X (Proc.devRef .tc main_v3)) := by
  dsimp only [hostOps1_1]; after_results_simp <;> (try simp only [TRef.ofBuf, TRef.toBuf, cast_eq]) <;> (try with_reducible rfl)
theorem maskKept0_of (Y : Valuation τ sig (Elt F)) :
    after ((hostOps1_1 (F := F)).drop 19) Y (Proc.devRef .tc main_call0_v12) = Y (Proc.devRef .tc main_call0_v12) := by
  simp only [hostOps1_1, List.drop_succ_cons, List.drop_zero]; after_results_simp <;> (try simp only [TRef.ofBuf, TRef.toBuf, cast_eq]) <;> (try with_reducible rfl)
theorem mask0_of (X : Valuation τ sig (Elt F)) :
    after ((hostOps1_1 (F := F)).take 19) X (Proc.devRef .tc main_call0_v12) = Cert.KernelIdeal.Take.inRangeMask (X (Proc.devRef .tc main_v3)) := by
  have h := maskAll0_of X
  rw [← List.take_append_drop 19 (hostOps1_1 (F := F)), after_append, maskKept0_of] at h
  exact h
theorem gath0_of (X : Valuation τ sig (Elt F)) :
    after ((hostOps1_1 (F := F)).take 19) X (Proc.devRef .tc main_call0_v13)
      = Host.gather gather_S100000x64_S1000000x1_S1000000x64_1_0_n_n_0_1_164 (X (Proc.devRef .tc main_v1))
          (Cert.KernelIdeal.Take.wrapIdx (X (Proc.devRef .tc main_v3))) := by
  simp only [hostOps1_1, List.take_succ_cons, List.take_zero]; after_results_simp <;> rfl
theorem fill0_of (Y : Valuation τ sig (Elt F)) :
    after ((hostOps1_1 (F := F)).drop 19) Y (Proc.devRef .tc main_v6)
      = select (broadcastInDim S1000000x64 ![0] bcast_S1000000_S1000000x64_0 (Y (Proc.devRef .tc main_call0_v12)))
          (Y (Proc.devRef .tc main_call0_v13))
          (broadcastInDim S1000000x64 ![] bcast_S_S1000000x64 (constant S_ .f32 0x7FC00000#32)) := by
  simp only [hostOps1_1, List.drop_succ_cons, List.drop_zero]; after_results_simp <;> rfl
theorem take0_of (X : Valuation τ sig (Elt F)) :
    after hostOps1_1 X (Proc.devRef .tc main_v6)
      = Cert.KernelIdeal.Take.takeTerm (X (Proc.devRef .tc main_v1)) (X (Proc.devRef .tc main_v3)) := by
  rw [← List.take_append_drop 19 (hostOps1_1 (F := F)), after_append, fill0_of, mask0_of, gath0_of]
theorem maskAll1_of (X : Valuation τ sig (Elt F)) :
    after hostOps1_2 X (Proc.devRef .tc main_call1_v12) = Cert.KernelIdeal.Take.inRangeMask (X (Proc.devRef .tc main_v5)) := by
  dsimp only [hostOps1_2]; after_results_simp <;> (try simp only [TRef.ofBuf, TRef.toBuf, cast_eq]) <;> (try with_reducible rfl)
theorem maskKept1_of (Y : Valuation τ sig (Elt F)) :
    after ((hostOps1_2 (F := F)).drop 19) Y (Proc.devRef .tc main_call1_v12) = Y (Proc.devRef .tc main_call1_v12) := by
  simp only [hostOps1_2, List.drop_succ_cons, List.drop_zero]; after_results_simp <;> (try simp only [TRef.ofBuf, TRef.toBuf, cast_eq]) <;> (try with_reducible rfl)
theorem mask1_of (X : Valuation τ sig (Elt F)) :
    after ((hostOps1_2 (F := F)).take 19) X (Proc.devRef .tc main_call1_v12) = Cert.KernelIdeal.Take.inRangeMask (X (Proc.devRef .tc main_v5)) := by
  have h := maskAll1_of X
  rw [← List.take_append_drop 19 (hostOps1_2 (F := F)), after_append, maskKept1_of] at h
  exact h
theorem gath1_of (X : Valuation τ sig (Elt F)) :
    after ((hostOps1_2 (F := F)).take 19) X (Proc.devRef .tc main_call1_v13)
      = Host.gather gather_S100000x64_S1000000x1_S1000000x64_1_0_n_n_0_1_164 (X (Proc.devRef .tc main_v1))
          (Cert.KernelIdeal.Take.wrapIdx (X (Proc.devRef .tc main_v5))) := by
  simp only [hostOps1_2, List.take_succ_cons, List.take_zero]; after_results_simp <;> rfl
theorem fill1_of (Y : Valuation τ sig (Elt F)) :
    after ((hostOps1_2 (F := F)).drop 19) Y (Proc.devRef .tc main_v7)
      = select (broadcastInDim S1000000x64 ![0] bcast_S1000000_S1000000x64_0 (Y (Proc.devRef .tc main_call1_v12)))
          (Y (Proc.devRef .tc main_call1_v13))
          (broadcastInDim S1000000x64 ![] bcast_S_S1000000x64 (constant S_ .f32 0x7FC00000#32)) := by
  simp only [hostOps1_2, List.drop_succ_cons, List.drop_zero]; after_results_simp <;> rfl
theorem take1_of (X : Valuation τ sig (Elt F)) :
    after hostOps1_2 X (Proc.devRef .tc main_v7)
      = Cert.KernelIdeal.Take.takeTerm (X (Proc.devRef .tc main_v1)) (X (Proc.devRef .tc main_v5)) := by
  rw [← List.take_append_drop 19 (hostOps1_2 (F := F)), after_append, fill1_of, mask1_of, gath1_of]
theorem keep1_3_v6 (X : Valuation τ sig (Elt F)) : after hostOps1_3 X (Proc.devRef .tc main_v6) = X (Proc.devRef .tc main_v6) := by
  dsimp only [hostOps1_3]; after_results_simp <;> rfl
theorem keep1_2_v6 (X : Valuation τ sig (Elt F)) : after hostOps1_2 X (Proc.devRef .tc main_v6) = X (Proc.devRef .tc main_v6) := by
  dsimp only [hostOps1_2]; after_results_simp <;> rfl
theorem keep1_3_v7 (X : Valuation τ sig (Elt F)) : after hostOps1_3 X (Proc.devRef .tc main_v7) = X (Proc.devRef .tc main_v7) := by
  dsimp only [hostOps1_3]; after_results_simp <;> rfl
theorem keep1_1_v1 (X : Valuation τ sig (Elt F)) : after hostOps1_1 X (Proc.devRef .tc main_v1) = X (Proc.devRef .tc main_v1) := by
  dsimp only [hostOps1_1]; after_results_simp <;> rfl
theorem keep1_1_v5 (X : Valuation τ sig (Elt F)) : after hostOps1_1 X (Proc.devRef .tc main_v5) = X (Proc.devRef .tc main_v5) := by
  dsimp only [hostOps1_1]; after_results_simp <;> rfl

theorem W3_v1 (c : Dev nD) : W3 m ρ c (Proc.devRef .tc main_v1) = W2 m ρ c (Proc.devRef .tc main_v1) := by
  dsimp only [W3, hostOps1]; after_results <;> rfl
theorem W3_v3 (c : Dev nD) : W3 m ρ c (Proc.devRef .tc main_v3) = edgeRow0 m ρ c := by
  dsimp only [W3, hostOps1]; after_results <;> rfl
theorem W3_v5 (c : Dev nD) : W3 m ρ c (Proc.devRef .tc main_v5) = edgeRow1 m ρ c := by
  dsimp only [W3, hostOps1]; after_results <;> rfl

/-- The source rows: the projected array gathered by the first edge row. -/
theorem W6_v6 (c : Dev nD) :
    W6 m ρ c (Proc.devRef .tc main_v6) = Cert.KernelIdeal.Take.takeTerm (W2 m ρ c (Proc.devRef .tc main_v1)) (edgeRow0 m ρ c) := by
  show after hostOps1_3 (after hostOps1_2 (after hostOps1_1 (W3 m ρ c))) (Proc.devRef .tc main_v6) = _
  rw [keep1_3_v6, keep1_2_v6, take0_of, W3_v1, W3_v3]
/-- The target rows: the projected array gathered by the second edge row. -/
theorem W6_v7 (c : Dev nD) :
    W6 m ρ c (Proc.devRef .tc main_v7) = Cert.KernelIdeal.Take.takeTerm (W2 m ρ c (Proc.devRef .tc main_v1)) (edgeRow1 m ρ c) := by
  show after hostOps1_3 (after hostOps1_2 (after hostOps1_1 (W3 m ρ c))) (Proc.devRef .tc main_v7) = _
  rw [keep1_3_v7, take1_of, keep1_1_v1, keep1_1_v5, W3_v1, W3_v5]

theorem W6_arg1 (c : Dev nD) : W6 m ρ c (Proc.devRef .tc main_arg1) = W2 m ρ c (Proc.devRef .tc main_arg1) := by
  dsimp only [W6, W5, W4, W3, hostOps1, hostOps1_1, hostOps1_2, hostOps1_3]; after_results_simp <;> rfl
theorem W6_arg4 (c : Dev nD) : W6 m ρ c (Proc.devRef .tc main_arg4) = W2 m ρ c (Proc.devRef .tc main_arg4) := by
  dsimp only [W6, W5, W4, W3, hostOps1, hostOps1_1, hostOps1_2, hostOps1_3]; after_results_simp <;> rfl
theorem W6_arg9 (c : Dev nD) : W6 m ρ c (Proc.devRef .tc main_arg9) = W2 m ρ c (Proc.devRef .tc main_arg9) := by
  dsimp only [W6, W5, W4, W3, hostOps1, hostOps1_1, hostOps1_2, hostOps1_3]; after_results_simp <;> rfl
theorem W6_arg11 (c : Dev nD) : W6 m ρ c (Proc.devRef .tc main_arg11) = W2 m ρ c (Proc.devRef .tc main_arg11) := by
  dsimp only [W6, W5, W4, W3, hostOps1, hostOps1_1, hostOps1_2, hostOps1_3]; after_results_simp <;> rfl
theorem W6_arg12 (c : Dev nD) : W6 m ρ c (Proc.devRef .tc main_arg12) = W2 m ρ c (Proc.devRef .tc main_arg12) := by
  dsimp only [W6, W5, W4, W3, hostOps1, hostOps1_1, hostOps1_2, hostOps1_3]; after_results_simp <;> rfl
theorem W6_v1 (c : Dev nD) : W6 m ρ c (Proc.devRef .tc main_v1) = W2 m ρ c (Proc.devRef .tc main_v1) := by
  dsimp only [W6, W5, W4, W3, hostOps1, hostOps1_1, hostOps1_2, hostOps1_3]; after_results_simp <;> rfl
theorem W6_v3 (c : Dev nD) : W6 m ρ c (Proc.devRef .tc main_v3) = edgeRow0 m ρ c := by
  dsimp only [W6, W5, W4, W3, hostOps1, hostOps1_1, hostOps1_2, hostOps1_3]; after_results_simp <;> rfl

/-- The three column bands of the attention weight, and the small vectors as rows. -/
theorem W6_v8 (c : Dev nD) :
    W6 m ρ c (Proc.devRef .tc main_v8) = extractStridedSlice S64x64 ![0, 0] (W2 m ρ c (Proc.devRef .tc main_arg7)) slices_S64x129_S64x64_0_0 := by
  dsimp only [W6, W5, W4, W3, hostOps1, hostOps1_1, hostOps1_2, hostOps1_3]; after_results_simp <;> rfl
theorem W6_v9 (c : Dev nD) :
    W6 m ρ c (Proc.devRef .tc main_v9) = extractStridedSlice S64x64 ![0, 64] (W2 m ρ c (Proc.devRef .tc main_arg7)) slices_S64x129_S64x64_0_64 := by
  dsimp only [W6, W5, W4, W3, hostOps1, hostOps1_1, hostOps1_2, hostOps1_3]; after_results_simp <;> rfl
theorem W6_v12 (c : Dev nD) :
    W6 m ρ c (Proc.devRef .tc main_v12) = shapeCast _ (shapeCast _ (extractStridedSlice S64x1 ![0, 128] (W2 m ρ c (Proc.devRef .tc main_arg7)) slices_S64x129_S64x1_0_128) shapeCasts_S64x1_S64) shapeCasts_S64_S1x64 := by
  dsimp only [W6, W5, W4, W3, hostOps1, hostOps1_1, hostOps1_2, hostOps1_3]; after_results_simp <;> rfl
theorem W6_v13 (c : Dev nD) :
    W6 m ρ c (Proc.devRef .tc main_v13) = shapeCast _ (W2 m ρ c (Proc.devRef .tc main_arg8)) shapeCasts_S64_S1x64 := by
  dsimp only [W6, W5, W4, W3, hostOps1, hostOps1_1, hostOps1_2, hostOps1_3]; after_results_simp <;> rfl
theorem W6_v14 (c : Dev nD) :
    W6 m ρ c (Proc.devRef .tc main_v14) = shapeCast _ (W2 m ρ c (Proc.devRef .tc main_arg10)) shapeCasts_S1_S1x1 := by
  dsimp only [W6, W5, W4, W3, hostOps1, hostOps1_1, hostOps1_2, hostOps1_3]; after_results_simp <;> rfl

/-! ## After the attention kernel -/

theorem W7_v15 (c : Dev nD) : W7 m ρ c (Proc.devRef .tc main_v15) = (dat1 (V6 m ρ) c).arrAt 10 cfg1.N := W7_arr m ρ c 10
theorem W7_v1 (c : Dev nD) : W7 m ρ c (Proc.devRef .tc main_v1) = W6 m ρ c (Proc.devRef .tc main_v1) := W7_of_ne m ρ c main_v1 (by decide)
theorem W7_v3 (c : Dev nD) : W7 m ρ c (Proc.devRef .tc main_v3) = W6 m ρ c (Proc.devRef .tc main_v3) := W7_of_ne m ρ c main_v3 (by decide)
theorem W7_arg11 (c : Dev nD) : W7 m ρ c (Proc.devRef .tc main_arg11) = W6 m ρ c (Proc.devRef .tc main_arg11) := W7_of_ne m ρ c main_arg11 (by decide)
theorem W7_arg12 (c : Dev nD) : W7 m ρ c (Proc.devRef .tc main_arg12) = W6 m ρ c (Proc.devRef .tc main_arg12) := W7_of_ne m ρ c main_arg12 (by decide)

/-! ## Before the normalisation -/

/-- The messages summed per source node. -/
theorem W8_v18 (c : Dev nD) :
    W8 m ρ c (Proc.devRef .tc main_v18)
      = Host.scatterAdd scatter_S100000x64_S1000000x1_S1000000x64_1_0_0_1
          (broadcastInDim S100000x64 ![] bcast_S_S100000x64 (constant S_ .f32 0x00000000#32))
          (broadcastInDim S1000000x1 ![0] bcast_S1000000_S1000000x1_0 (W7 m ρ c (Proc.devRef .tc main_v3)))
          (W7 m ρ c (Proc.devRef .tc main_v15)) := by
  dsimp only [W8, hostOps2]; after_results <;> rfl
theorem W8_v1 (c : Dev nD) : W8 m ρ c (Proc.devRef .tc main_v1) = W7 m ρ c (Proc.devRef .tc main_v1) := by
  dsimp only [W8, hostOps2]; after_results
theorem W8_v19 (c : Dev nD) : W8 m ρ c (Proc.devRef .tc main_v19) = shapeCast _ (W7 m ρ c (Proc.devRef .tc main_arg11)) shapeCasts_S64_S1x64 := by
  dsimp only [W8, hostOps2]; after_results <;> rfl
theorem W8_v20 (c : Dev nD) : W8 m ρ c (Proc.devRef .tc main_v20) = shapeCast _ (W7 m ρ c (Proc.devRef .tc main_arg12)) shapeCasts_S64_S1x64 := by
  dsimp only [W8, hostOps2]; after_results <;> rfl

/-! ## After the normalisation -/

theorem W9_v21 (c : Dev nD) : W9 m ρ c (Proc.devRef .tc main_v21) = (dat2 (V8 m ρ) c).arrAt 4 cfg2.N := W9_arr m ρ c 4

end Cert.KernelIdeal.HostVal

end
-- ==== Proof.Spec.lean ====
/-
  The mathematics of one graph-convolution layer, row by row, on the extended reals.

  A node's projected feature row is `x = h · Wᵀ + b`.  For an edge with source row `xr`, target row `xc`, distance `dist`
  and mask `emask`, the hidden pre-activation at unit `j` is
    `pre j = Σₖ xr k · wa j k + Σₖ xc k · wb j k + dist · wc j + b1 j`,
  the attention weight is `logistic (Σⱼ silu (pre j) · w2 j + b2) · emask`, and the message is `xc` scaled by it.
  After the messages are summed per node into `a`, the node's row is `out = a · (1/100) + x`, normalised over its 64
  entries (mean, mean of squared deviations, reciprocal square root with the stabiliser added), scaled by `g`, shifted by
  `b` and passed through silu.

  Every function below reads ONE row of the large operands, so a block of rows of an array and the whole array agree on it.
-/
import Idealize.ShloMosaic.PureOps.Ideal
import Mathlib.Algebra.BigOperators.Fin

noncomputable section

namespace Cert.Spec

open Idealize.ShloMosaic

/-- `silu v = v · logistic v`. -/
def silu (v : EReal) : EReal := v * Ideal.logistic v

/-- Entry `d` of a projected row: `Σₖ hr k · W d k + b d`. -/
def linRow (hr : Fin 64 → EReal) (W : Fin 64 → Fin 64 → EReal) (b : Fin 64 → EReal) (d : Fin 64) : EReal :=
  (∑ k : Fin 64, hr k * W d k) + b d

/-- The hidden pre-activation of an edge at unit `j`: the two row products, the distance term, the bias, in that order. -/
def preRow (xr xc : Fin 64 → EReal) (dist : EReal) (wa wb : Fin 64 → Fin 64 → EReal) (wc b1 : Fin 64 → EReal)
    (j : Fin 64) : EReal :=
  (∑ k : Fin 64, xr k * wa j k) + (∑ k : Fin 64, xc k * wb j k) + dist * wc j + b1 j

/-- The edge's attention weight from its pre-activations. -/
def attOf (pre : Fin 64 → EReal) (w2 : Fin 64 → EReal) (b2 emask : EReal) : EReal :=
  Ideal.logistic ((∑ j : Fin 64, silu (pre j) * w2 j) + b2) * emask

/-- Entry `d` of the edge's message: the target row scaled by the attention weight. -/
def aggRow (xr xc : Fin 64 → EReal) (dist emask : EReal) (wa wb : Fin 64 → Fin 64 → EReal) (wc b1 w2 : Fin 64 → EReal)
    (b2 : EReal) (d : Fin 64) : EReal :=
  xc d * attOf (preRow xr xc dist wa wb wc b1) w2 b2 emask

/-- The residual row: the summed messages times one hundredth, plus the projected row. -/
def outRow (a x : Fin 64 → EReal) (d : Fin 64) : EReal := a d * (((1 / 100 : ℝ) : ℝ) : EReal) + x d

/-- The mean of a row of 64 entries; the divisor is the float literal 64.0, kept as its word. -/
def meanOf (f : Fin 64 → EReal) : EReal := Ideal.div (∑ d : Fin 64, f d) (Ideal.ofBits .f32 0x42800000#32)

/-- Entry `d` of the normalised, scaled, shifted and activated row. The stabiliser is the float literal kept as its word. -/
def normRow (a x g b : Fin 64 → EReal) (d : Fin 64) : EReal :=
  silu ((outRow a x d - meanOf (outRow a x))
      * Ideal.rsqrt (meanOf (fun k => (outRow a x k - meanOf (outRow a x)) * (outRow a x k - meanOf (outRow a x)))
          + Ideal.ofBits .f32 0x3727C5AC#32)
      * g d + b d)

end Cert.Spec

end
-- ==== Proof.LinBlock.lean ====
/-
  The projection kernel, read as values. A grid point t holds rows 10000·t … 10000·t + 9999 of the first operand and of
  the result; the weight and the bias row are whole at every point. The body stores, at (r, d) of its block,
  Σₖ h[r, k] · W[d, k] + b[d]: the matrix product against the transposed weight (a change of float format is the identity on
  the extended reals) plus the bias row copied down the rows. So entry (n, d) of the result array is the specification's
  `linRow` of row n of the operand.
-/
import proofs.«426974_j57655640981900_3_alg».proof.Proof.Gen.KernelIdeal.Frame
import proofs.«426974_j57655640981900_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Lin

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into the zero accumulator at (p, d): the sum over the 64 contracted positions of row p of the left
    operand against column d of the right one. -/
theorem matmul_at (l : FVec Ideal S10000x64 .bf16) (r : FVec Ideal S64x64 .bf16) (p : Fin 10000) (d : Fin 64) :
    matmul dot_S10000x64_S64x64_S10000x64_1_0_0_1_n_n none l r (constant S10000x64 .f32 0x00000000#32) (ix2 p d)
      = ∑ k : Fin 64, l (ix2 p k) * r (ix2 k d) := by
  unfold matmul
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p d) ((contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p d) ((contrEquiv1 dot_S10000x64_S64x64_S10000x64_1_0_0_1_n_n 64 rfl rfl).symm k) = ix2 k d := funext fun a => Fin.ext (by
    match a with
    | ⟨0, _⟩ => exact (rhs_dot_0 _ _).trans hk
    | ⟨1, _⟩ => exact rhs_dot_1 _ _)
  rw [el, er]

/-! ## The body's payload at an entry -/

/-- Entry (r, d) of what the body stores: row r of the operand block against row d of the weight, plus the bias. -/
theorem pay_apply (x0 : Vec Ideal S10000x64 .f32) (x2 : Vec Ideal S64x64 .f32) (x4 : Vec Ideal S1x64 .f32)
    (r : Fin 10000) (d : Fin 64) :
    k0_pay1 (F := Ideal) x0 x2 x4 (ix2 r d)
      = Cert.Spec.linRow (fun k => x0 (ix2 r k)) (fun j k => x2 (ix2 j k)) (fun j => x4 (ix2 (0 : Fin 1) j)) d := by
  unfold k0_pay1 Cert.Spec.linRow
  rw [addf_apply, matmul_at, shapeCast_self, shapeCast_self, broadcastTo_1b_ab_apply]
  refine congrArg (· + x4 (ix2 (0 : Fin 1) d)) (Finset.sum_congr rfl fun k _ => ?_)
  rw [truncf_apply, transpose_ix2_apply, truncf_apply]

/-! ## The blocks as rows of the arrays -/

/-- The printed index maps over the grid: at point t the operand's and the result's block is block row t; the weight and
    the bias row are block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the operand's block at point t is row 10000·t + r of the operand. -/
theorem opBlock_apply (c : Dev nD) (t : Fin cfg0.N) (r : Fin 10000) (k : Fin 64) (n : Fin 100000)
    (hn : n.val = 10000 * t.val + r.val) :
    (iblk0 V c 0 t : S10000x64.Idx → EReal) (ix2 r k) = (V c main_arg0 : S100000x64.Idx → EReal) (ix2 n k) := by
  obtain ⟨e0, e1, -⟩ := idx_facts t
  unfold iblk0
  rw [View.read_apply]
  show (V c main_arg0 : S100000x64.Idx → EReal) _ = (V c main_arg0 : S100000x64.Idx → EReal) _
  congr 1
  funext a
  apply Fin.ext
  match a with
  | ⟨0, _⟩ => show win0_0.index t 0 * 10000 + 1 * r.val = n.val; rw [e0, hn]; omega
  | ⟨1, _⟩ => show win0_0.index t 1 * 64 + 1 * k.val = k.val; rw [e1]; omega

/-- The weight's block is the weight. -/
theorem wBlock_apply (c : Dev nD) (t : Fin cfg0.N) (j k : Fin 64) :
    (iblk0 V c 1 t : S64x64.Idx → EReal) (ix2 j k) = (V c main_arg5 : S64x64.Idx → EReal) (ix2 j k) := by
  obtain ⟨-, -, e2, e3, -⟩ := idx_facts t
  unfold iblk0
  rw [View.read_apply]
  show (V c main_arg5 : S64x64.Idx → EReal) _ = (V c main_arg5 : S64x64.Idx → EReal) _
  congr 1
  funext a
  apply Fin.ext
  match a with
  | ⟨0, _⟩ => show win0_1.index t 0 * 64 + 1 * j.val = j.val; rw [e2]; omega
  | ⟨1, _⟩ => show win0_1.index t 1 * 64 + 1 * k.val = k.val; rw [e3]; omega

/-- The bias row's block is the bias row. -/
theorem bBlock_apply (c : Dev nD) (t : Fin cfg0.N) (j : Fin 64) :
    (iblk0 V c 2 t : S1x64.Idx → EReal) (ix2 (0 : Fin 1) j) = (V c main_v0 : S1x64.Idx → EReal) (ix2 (0 : Fin 1) j) := by
  obtain ⟨-, -, -, -, e4, e5, -⟩ := idx_facts t
  unfold iblk0
  rw [View.read_apply]
  show (V c main_v0 : S1x64.Idx → EReal) _ = (V c main_v0 : S1x64.Idx → EReal) _
  congr 1
  funext a
  apply Fin.ext
  match a with
  | ⟨0, _⟩ => show win0_2.index t 0 * 1 + 1 * (0 : Fin 1).val = (0 : Fin 1).val; rw [e4]; rfl
  | ⟨1, _⟩ => show win0_2.index t 1 * 64 + 1 * j.val = j.val; rw [e5]; omega

/-! ## The result array -/

/-- Entry (n, d) of the projected array, from the arrays as the region finds them. -/
def rowOut (c : Dev nD) (n : Fin 100000) (d : Fin 64) : EReal :=
  Cert.Spec.linRow (fun k => (V c main_arg0 : S100000x64.Idx → EReal) (ix2 n k))
    (fun j k => (V c main_arg5 : S64x64.Idx → EReal) (ix2 j k))
    (fun j => (V c main_v0 : S1x64.Idx → EReal) (ix2 (0 : Fin 1) j)) d

/-- The projected array as one function of the index. -/
def whole (c : Dev nD) : S100000x64.Idx → EReal := fun i => rowOut V c ⟨(i 0).val, (i 0).isLt⟩ ⟨(i 1).val, (i 1).isLt⟩

theorem whole_ix2 (c : Dev nD) (n : Fin 100000) (d : Fin 64) : whole V c (ix2 n d) = rowOut V c n d := rfl

/-- What point t writes back is block row t of the projected array. -/
theorem flushed_eq (c : Dev nD) (t : Fin cfg0.N) :
    (dat0 (F := Ideal) V c).flushed 3 t = ((cfg0.win 3).blk t).view.read (Elt Ideal) (whole V c) := by
  show (cfg0.win 3).cut (grid0.coords t) ((dat0 (F := Ideal) V c).after 3 t) = _
  rw [after0_3]
  unfold out0_3
  rw [View.canon_unit_zero hz]
  simp only [View.ld_unit_zero (S := S10000x64) hz, View.ld_unit_zero (S := S64x64) hz, View.ld_unit_zero (S := S1x64) hz]
  funext j
  obtain ⟨r, d, rfl⟩ : ∃ (r : Fin 10000) (d : Fin 64), j = ix2 r d := ⟨j 0, j 1, eq_ix2 j⟩
  obtain ⟨-, -, -, -, -, -, e6, e7⟩ := idx_facts t
  have hN : cfg0.N = 10 := N_0
  have ht : t.val < cfg0.N := t.isLt
  have hemb : ((cfg0.win 3).blk t).view.emb (ix2 r d) = ix2 (⟨10000 * t.val + r.val, by omega⟩ : Fin 100000) d := by
    funext a
    apply Fin.ext
    match a with
    | ⟨0, _⟩ => show win0_3.index t 0 * 10000 + 1 * r.val = 10000 * t.val + r.val; rw [e6]; omega
    | ⟨1, _⟩ => show win0_3.index t 1 * 64 + 1 * d.val = d.val; rw [e7]; omega
  show k0_pay1 (F := Ideal) (iblk0 V c 0 t) (iblk0 V c 1 t) (iblk0 V c 2 t) (ix2 r d) = whole V c (((cfg0.win 3).blk t).view.emb (ix2 r d))
  rw [hemb, whole_ix2]
  refine (pay_apply (iblk0 V c 0 t) (iblk0 V c 1 t) (iblk0 V c 2 t) r d).trans ?_
  unfold rowOut
  have h0 : (fun k => (iblk0 V c 0 t : S10000x64.Idx → EReal) (ix2 r k))
      = fun k => (V c main_arg0 : S100000x64.Idx → EReal) (ix2 (⟨10000 * t.val + r.val, by omega⟩ : Fin 100000) k) :=
    funext fun k => opBlock_apply V c t r k _ rfl
  have h1 : (fun j k => (iblk0 V c 1 t : S64x64.Idx → EReal) (ix2 j k)) = fun j k => (V c main_arg5 : S64x64.Idx → EReal) (ix2 j k) :=
    funext fun j => funext fun k => wBlock_apply V c t j k
  have h2 : (fun j => (iblk0 V c 2 t : S1x64.Idx → EReal) (ix2 (0 : Fin 1) j)) = fun j => (V c main_v0 : S1x64.Idx → EReal) (ix2 (0 : Fin 1) j) :=
    funext fun j => bBlock_apply V c t j
  rw [h0, h1, h2]

/-- The result array after the run is the projected array: every index lies in the block of the point its row number
    names (row n is in block row n / 10000), and every point writes its block back. -/
theorem arr_eq (c : Dev nD) : (dat0 (F := Ideal) V c).arrAt 3 cfg0.N = whole V c :=
  (dat0 (F := Ideal) V c).arrAt_eq_of_cover 3 (whole V c) (fun t _ => flushed_eq V c t) fun i => by
    have hN : grid0.N = 10 := N_0
    have hN' : cfg0.N = 10 := N_0
    have hi0 : (i 0 : Nat) < 100000 := (i 0).isLt
    have hi1 : (i 1 : Nat) < 64 := (i 1).isLt
    have hq : (i 0 : Nat) / 10000 < cfg0.N := by omega
    obtain ⟨-, -, -, -, -, -, e6', e7⟩ := idx_facts ⟨(i 0 : Nat) / 10000, hq⟩
    have e6 : win0_3.index ⟨(i 0 : Nat) / 10000, hq⟩ (0 : Fin 2) = (i 0 : Nat) / 10000 := e6'
    refine ⟨⟨(i 0 : Nat) / 10000, hq⟩, flush0_3 _, ?_⟩
    show i ∈ ((View.whole main_v1).slice (win0_3.rect ⟨(i 0 : Nat) / 10000, hq⟩)).set
    rw [View.set_slice_whole, Rect.mem_set_unit]
    intro a
    match a with
    | ⟨0, _⟩ =>
      show win0_3.index ⟨(i 0 : Nat) / 10000, hq⟩ 0 * 10000 ≤ (i 0 : Nat) ∧ (i 0 : Nat) < win0_3.index ⟨(i 0 : Nat) / 10000, hq⟩ 0 * 10000 + 10000
      rw [e6]; omega
    | ⟨1, _⟩ =>
      show win0_3.index ⟨(i 0 : Nat) / 10000, hq⟩ 1 * 64 ≤ (i 1 : Nat) ∧ (i 1 : Nat) < win0_3.index ⟨(i 0 : Nat) / 10000, hq⟩ 1 * 64 + 64
      rw [e7]; omega

/-- Entry (n, d) of the projection's result array after its run: row n of the first operand against row d of the weight,
    plus the bias. -/
theorem final0 (c : Dev nD) (n : Fin 100000) (d : Fin 64) :
    ((dat0 (F := Ideal) V c).arrAt 3 cfg0.N : S100000x64.Idx → EReal) (ix2 n d)
      = Cert.Spec.linRow (fun k => (V c main_arg0 : S100000x64.Idx → EReal) (ix2 n k))
          (fun j k => (V c main_arg5 : S64x64.Idx → EReal) (ix2 j k))
          (fun j => (V c main_v0 : S1x64.Idx → EReal) (ix2 (0 : Fin 1) j)) d :=
  congrFun (arr_eq V c) (ix2 n d)

end Cert.KernelIdeal.Lin

end
-- ==== Proof.AttnBlock.lean ====
/-
  The attention kernel, read as values. A grid point t holds rows 10000·t … 10000·t + 9999 of the source rows, the target
  rows, the distance column, the mask column and the result; the two 64×64 weight parts, the three [1,64] rows (distance
  weights, bias, second-layer weights) and the [1,1] bias are whole at every point. At row r the body forms the 64 hidden
  pre-activations Σₖ xr[r, k] · wa[j, k] + Σₖ xc[r, k] · wb[j, k] + dist[r] · wc[j] + b1[j] (two matrix products against the
  transposed weight parts — a change of float format is the identity on the extended reals — plus the distance column and
  the bias row spread over the block), sums silu of them against the second-layer weights over the 64 lanes, adds the
  bias, takes the logistic, multiplies by the mask, and stores the target row scaled by that weight. So entry (e, d) of the
  result array is the specification's `aggRow` of row e of the operands.
-/
import proofs.«426974_j57655640981900_3_alg».proof.Proof.Gen.KernelIdeal.Frame
import proofs.«426974_j57655640981900_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Attn

open Cert.KernelIdeal Cert.KernelIdeal.Gen

variable (V : (c : Dev nD) → (b : Ref sig .tc) → Buf (Elt Ideal) ((c : Thread nD τ).loc b))

/-! ## A row times a transposed weight

The kernel's product contracts axis 1 of a [10000,64] block with axis 0 of a [64,64] matrix: entry (r, j) is
`Σₖ x (r, k) · w (k, j)`. -/

theorem mm_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem mm_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem mm_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, j) of the product into the zero accumulator is the row's sum over the contracted axis. -/
theorem mm_apply (x : FVec Ideal S10000x64 .bf16) (w : FVec Ideal S64x64 .bf16) (r : Fin 10000) (j : Fin 64) :
    matmul dot_S10000x64_S64x64_S10000x64_1_0_0_1_n_n none x w (constant S10000x64 .f32 0x00000000#32) (ix2 r j)
      = ∑ k : Fin 64, x (ix2 r k) * w (ix2 k j) := by
  show FloatOps.matmul dot_S10000x64_S64x64_S10000x64_1_0_0_1_n_n none x w (constant S10000x64 .f32 0x00000000#32) (ix2 r j) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact mm_lhs_0 _ _
    | ⟨1, _⟩ => exact (mm_lhs_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (mm_rhs_0 _ _).trans hk
    | ⟨1, _⟩ => exact mm_rhs_1 _ _)
  rw [el, er]

/-- Against a transposed weight: entry (r, j) is row r of the block against row j of the weight. -/
theorem mmT_apply (x : FVec Ideal S10000x64 .bf16) (w : FVec Ideal S64x64 .bf16) (h : S64x64.Transposes [1, 0] S64x64)
    (r : Fin 10000) (j : Fin 64) :
    matmul dot_S10000x64_S64x64_S10000x64_1_0_0_1_n_n none x (transpose S64x64 [1, 0] w h) (constant S10000x64 .f32 0x00000000#32) (ix2 r j)
      = ∑ k : Fin 64, x (ix2 r k) * w (ix2 j k) := by
  rw [mm_apply]
  refine Finset.sum_congr rfl fun k _ => ?_
  rw [transpose_ix2_apply]

/-! ## The layout operations of the body, read at an entry -/

section Layout
variable {α : Type}

/-- A [10000,1] column spread over the 64 lanes reads, at (r, j), the column at row r. -/
theorem bcast_col_apply (v : S10000x1.Idx → α) (h : S10000x1.Broadcasts S10000x64) (r : Fin 10000) (j : Fin 64) :
    broadcastTo S10000x64 v h (ix2 r j) = v (ix2 r (0 : Fin 1)) := by
  refine broadcastTo_apply v h (ix2 r j) (ix2 r (0 : Fin 1)) fun ax => ?_
  match ax with
  | ⟨0, _⟩ =>
    show r.val = if (10000 : Nat) = 1 then 0 else r.val
    rw [if_neg (by decide)]
  | ⟨1, _⟩ =>
    show (0 : Nat) = if (1 : Nat) = 1 then 0 else j.val
    rw [if_pos rfl]

/-- The [1,1] scalar spread over a [10000,1] column reads the scalar at every row. -/
theorem bcast_scalar_apply (v : S1x1.Idx → α) (h : S1x1.Broadcasts S10000x1) (r : Fin 10000) :
    broadcastTo S10000x1 v h (ix2 r (0 : Fin 1)) = v (ix2 (0 : Fin 1) (0 : Fin 1)) := by
  refine broadcastTo_apply v h (ix2 r (0 : Fin 1)) (ix2 (0 : Fin 1) (0 : Fin 1)) fun ax => ?_
  match ax with
  | ⟨0, _⟩ =>
    show (0 : Nat) = if (1 : Nat) = 1 then 0 else r.val
    rw [if_pos rfl]
  | ⟨1, _⟩ =>
    show (0 : Nat) = if (1 : Nat) = 1 then 0 else 0
    rw [if_pos rfl]

/-- A [10000] vector recast as a [10000,1] column reads, at (r, 0), the vector at r. -/
theorem cast_col_apply (v : S10000.Idx → α) (h : S10000.ShapeCasts S10000x1) (r : Fin 10000) :
    shapeCast S10000x1 v h (ix2 r (0 : Fin 1)) = v (ix1 r) :=
  shapeCast_apply v h _ _ (by
    rw [Shape.rowMajor_val_two, Shape.rowMajor_val_one]
    show r.val = r.val * 1 + 0
    omega)

end Layout

/-- The lane sum's source index: row r with lane k put back on the summed axis is (r, k). -/
theorem lift_row (h : S10000x64.Reduces [1] S10000) (r : Fin 10000) (k : Fin 64) :
    h.lift (ix1 r) k = ix2 r k := by
  funext c; apply Fin.ext
  fin_cases c <;> rfl

theorem logistic_apply {s : Shape} {φ : FTy} (a : FVec Ideal s φ) (i : s.Idx) : logistic a i = Ideal.logistic (a i) := rfl

/-! ## The body's values at an entry -/

/-- The score column at row r: the 64 hidden units' activations against the second-layer weights, summed. -/
theorem pay3_apply (x0 x1 : Vec Ideal S10000x64 .f32) (x4 x5 : Vec Ideal S64x64 .f32) (x2 : Vec Ideal S10000x1 .f32)
    (x6 x7 x8 : Vec Ideal S1x64 .f32) (r : Fin 10000) :
    k1_pay3 x0 x1 x4 x5 x2 x6 x7 x8 (ix2 r (0 : Fin 1))
      = ∑ j : Fin 64, Cert.Spec.silu (Cert.Spec.preRow (fun k => x0 (ix2 r k)) (fun k => x1 (ix2 r k)) (x2 (ix2 r (0 : Fin 1)))
          (fun j k => x4 (ix2 j k)) (fun j k => x5 (ix2 j k)) (fun j => x6 (ix2 (0 : Fin 1) j)) (fun j => x7 (ix2 (0 : Fin 1) j)) j)
          * x8 (ix2 (0 : Fin 1) j) := by
  unfold k1_pay3 k1_pay2
  simp only [shapeCast_self]
  rw [cast_col_apply]
  refine (Ideal.multiReduction_add_single _ _ _ _ _ (ix1 r)).trans ?_
  show ∑ j : Fin 64, _ = _
  refine Finset.sum_congr rfl fun j _ => ?_
  rw [lift_row]
  simp only [mulf_apply, addf_apply, logistic_apply, bcast_col_apply, broadcastTo_1b_ab_apply]
  rw [mmT_apply, mmT_apply]
  simp only [truncf_apply]
  rfl

/-- Entry (r, d) of the stored block: the target row's entry scaled by the gated, masked score. -/
theorem pay1_apply (v3 : FVec Ideal S10000x64 .f32) (v38 : FVec Ideal S10000x1 .f32) (v39 : Vec Ideal S1x1 .f32)
    (v44 : Vec Ideal S10000x1 .f32) (r : Fin 10000) (d : Fin 64) :
    k1_pay1 v3 v38 v39 v44 (ix2 r d)
      = v3 (ix2 r d) * (Ideal.logistic (v38 (ix2 r (0 : Fin 1)) + v39 (ix2 (0 : Fin 1) (0 : Fin 1))) * v44 (ix2 r (0 : Fin 1))) := by
  unfold k1_pay1
  simp only [shapeCast_self]
  simp only [mulf_apply, addf_apply, logistic_apply, bcast_col_apply, bcast_scalar_apply]

/-- The whole body at entry (r, d), from the ten input blocks. -/
theorem out_apply (x0 x1 : Vec Ideal S10000x64 .f32) (x2 x3 : Vec Ideal S10000x1 .f32) (x4 x5 : Vec Ideal S64x64 .f32)
    (x6 x7 x8 : Vec Ideal S1x64 .f32) (x9 : Vec Ideal S1x1 .f32) (r : Fin 10000) (d : Fin 64) :
    k1_pay1 (k1_pay2 x1) (k1_pay3 x0 x1 x4 x5 x2 x6 x7 x8) x9 x3 (ix2 r d)
      = Cert.Spec.aggRow (fun k => x0 (ix2 r k)) (fun k => x1 (ix2 r k)) (x2 (ix2 r (0 : Fin 1))) (x3 (ix2 r (0 : Fin 1)))
          (fun j k => x4 (ix2 j k)) (fun j k => x5 (ix2 j k)) (fun j => x6 (ix2 (0 : Fin 1) j)) (fun j => x7 (ix2 (0 : Fin 1) j))
          (fun j => x8 (ix2 (0 : Fin 1) j)) (x9 (ix2 (0 : Fin 1) (0 : Fin 1))) d := by
  rw [pay1_apply, pay3_apply]
  unfold k1_pay2
  rw [shapeCast_self]
  rfl

/-! ## The windows' blocks

At grid point t the four row-blocked operands and the result hold rows 10000·t … 10000·t + 9999 of their arrays; the six
small operands hold their whole arrays. A block's coordinate on an axis is the block index times the block's extent plus
the coordinate inside the block. -/

/-- The block indices of the row-blocked windows over the grid: block (t, 0). -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_10.index t (0 : Fin 2) = t.val ∧ win1_10.index t (1 : Fin 2) = 0 :=
  (by decide +kernel : ∀ t : Fin grid1.N, _)

/-- The block indices of the whole-array windows over the grid: block (0, 0). -/
theorem idx_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Row r of the block at point t, as a row of the whole array. -/
abbrev grow (t : Fin cfg1.N) (r : Fin 10000) : Fin 1000000 :=
  ⟨10000 * t.val + r.val, by have hN : cfg1.N = 100 := N_1; have := t.isLt; have := r.isLt; omega⟩

theorem iblk_0 (c : Dev nD) (t : Fin cfg1.N) (r : Fin 10000) (k : Fin 64) :
    (iblk1 V c 0 t : Vec Ideal S10000x64 .f32) (ix2 r k) = (V c main_v6 : S1000000x64.Idx → EReal) (ix2 (grow t r) k) := by
  obtain ⟨e0, e1, -⟩ := idx_rows t
  show (V c main_v6 : S1000000x64.Idx → EReal) (((cfg1.win 0).blk t).view.emb (ix2 r k)) = _
  refine congrArg _ (funext fun a => Fin.ext ?_)
  match a with
  | ⟨0, _⟩ => show win1_0.index t (0 : Fin 2) * 10000 + 1 * r.val = 10000 * t.val + r.val; omega
  | ⟨1, _⟩ => show win1_0.index t (1 : Fin 2) * 64 + 1 * k.val = k.val; omega

theorem iblk_1 (c : Dev nD) (t : Fin cfg1.N) (r : Fin 10000) (k : Fin 64) :
    (iblk1 V c 1 t : Vec Ideal S10000x64 .f32) (ix2 r k) = (V c main_v7 : S1000000x64.Idx → EReal) (ix2 (grow t r) k) := by
  obtain ⟨-, -, e0, e1, -⟩ := idx_rows t
  show (V c main_v7 : S1000000x64.Idx → EReal) (((cfg1.win 1).blk t).view.emb (ix2 r k)) = _
  refine congrArg _ (funext fun a => Fin.ext ?_)
  match a with
  | ⟨0, _⟩ => show win1_1.index t (0 : Fin 2) * 10000 + 1 * r.val = 10000 * t.val + r.val; omega
  | ⟨1, _⟩ => show win1_1.index t (1 : Fin 2) * 64 + 1 * k.val = k.val; omega

theorem iblk_2 (c : Dev nD) (t : Fin cfg1.N) (r : Fin 10000) :
    (iblk1 V c 2 t : Vec Ideal S10000x1 .f32) (ix2 r (0 : Fin 1)) = (V c main_arg1 : S1000000x1.Idx → EReal) (ix2 (grow t r) (0 : Fin 1)) := by
  obtain ⟨-, -, -, -, e0, e1, -⟩ := idx_rows t
  show (V c main_arg1 : S1000000x1.Idx → EReal) (((cfg1.win 2).blk t).view.emb (ix2 r (0 : Fin 1))) = _
  refine congrArg _ (funext fun a => Fin.ext ?_)
  match a with
  | ⟨0, _⟩ => show win1_2.index t (0 : Fin 2) * 10000 + 1 * r.val = 10000 * t.val + r.val; omega
  | ⟨1, _⟩ => show win1_2.index t (1 : Fin 2) * 1 + 1 * 0 = 0; omega

theorem iblk_3 (c : Dev nD) (t : Fin cfg1.N) (r : Fin 10000) :
    (iblk1 V c 3 t : Vec Ideal S10000x1 .f32) (ix2 r (0 : Fin 1)) = (V c main_arg4 : S1000000x1.Idx → EReal) (ix2 (grow t r) (0 : Fin 1)) := by
  obtain ⟨-, -, -, -, -, -, e0, e1, -⟩ := idx_rows t
  show (V c main_arg4 : S1000000x1.Idx → EReal) (((cfg1.win 3).blk t).view.emb (ix2 r (0 : Fin 1))) = _
  refine congrArg _ (funext fun a => Fin.ext ?_)
  match a with
  | ⟨0, _⟩ => show win1_3.index t (0 : Fin 2) * 10000 + 1 * r.val = 10000 * t.val + r.val; omega
  | ⟨1, _⟩ => show win1_3.index t (1 : Fin 2) * 1 + 1 * 0 = 0; omega

theorem iblk_4 (c : Dev nD) (t : Fin cfg1.N) (j k : Fin 64) :
    (iblk1 V c 4 t : Vec Ideal S64x64 .f32) (ix2 j k) = (V c main_v8 : S64x64.Idx → EReal) (ix2 j k) := by
  obtain ⟨e0, e1, -⟩ := idx_whole t
  show (V c main_v8 : S64x64.Idx → EReal) (((cfg1.win 4).blk t).view.emb (ix2 j k)) = _
  refine congrArg _ (funext fun a => Fin.ext ?_)
  match a with
  | ⟨0, _⟩ => show win1_4.index t (0 : Fin 2) * 64 + 1 * j.val = j.val; omega
  | ⟨1, _⟩ => show win1_4.index t (1 : Fin 2) * 64 + 1 * k.val = k.val; omega

theorem iblk_5 (c : Dev nD) (t : Fin cfg1.N) (j k : Fin 64) :
    (iblk1 V c 5 t : Vec Ideal S64x64 .f32) (ix2 j k) = (V c main_v9 : S64x64.Idx → EReal) (ix2 j k) := by
  obtain ⟨-, -, e0, e1, -⟩ := idx_whole t
  show (V c main_v9 : S64x64.Idx → EReal) (((cfg1.win 5).blk t).view.emb (ix2 j k)) = _
  refine congrArg _ (funext fun a => Fin.ext ?_)
  match a with
  | ⟨0, _⟩ => show win1_5.index t (0 : Fin 2) * 64 + 1 * j.val = j.val; omega
  | ⟨1, _⟩ => show win1_5.index t (1 : Fin 2) * 64 + 1 * k.val = k.val; omega

theorem iblk_6 (c : Dev nD) (t : Fin cfg1.N) (j : Fin 64) :
    (iblk1 V c 6 t : Vec Ideal S1x64 .f32) (ix2 (0 : Fin 1) j) = (V c main_v12 : S1x64.Idx → EReal) (ix2 (0 : Fin 1) j) := by
  obtain ⟨-, -, -, -, e0, e1, -⟩ := idx_whole t
  show (V c main_v12 : S1x64.Idx → EReal) (((cfg1.win 6).blk t).view.emb (ix2 (0 : Fin 1) j)) = _
  refine congrArg _ (funext fun a => Fin.ext ?_)
  match a with
  | ⟨0, _⟩ => show win1_6.index t (0 : Fin 2) * 1 + 1 * 0 = 0; omega
  | ⟨1, _⟩ => show win1_6.index t (1 : Fin 2) * 64 + 1 * j.val = j.val; omega

theorem iblk_7 (c : Dev nD) (t : Fin cfg1.N) (j : Fin 64) :
    (iblk1 V c 7 t : Vec Ideal S1x64 .f32) (ix2 (0 : Fin 1) j) = (V c main_v13 : S1x64.Idx → EReal) (ix2 (0 : Fin 1) j) := by
  obtain ⟨-, -, -, -, -, -, e0, e1, -⟩ := idx_whole t
  show (V c main_v13 : S1x64.Idx → EReal) (((cfg1.win 7).blk t).view.emb (ix2 (0 : Fin 1) j)) = _
  refine congrArg _ (funext fun a => Fin.ext ?_)
  match a with
  | ⟨0, _⟩ => show win1_7.index t (0 : Fin 2) * 1 + 1 * 0 = 0; omega
  | ⟨1, _⟩ => show win1_7.index t (1 : Fin 2) * 64 + 1 * j.val = j.val; omega

theorem iblk_8 (c : Dev nD) (t : Fin cfg1.N) (j : Fin 64) :
    (iblk1 V c 8 t : Vec Ideal S1x64 .f32) (ix2 (0 : Fin 1) j) = (V c main_arg9 : S1x64.Idx → EReal) (ix2 (0 : Fin 1) j) := by
  obtain ⟨-, -, -, -, -, -, -, -, e0, e1, -⟩ := idx_whole t
  show (V c main_arg9 : S1x64.Idx → EReal) (((cfg1.win 8).blk t).view.emb (ix2 (0 : Fin 1) j)) = _
  refine congrArg _ (funext fun a => Fin.ext ?_)
  match a with
  | ⟨0, _⟩ => show win1_8.index t (0 : Fin 2) * 1 + 1 * 0 = 0; omega
  | ⟨1, _⟩ => show win1_8.index t (1 : Fin 2) * 64 + 1 * j.val = j.val; omega

theorem iblk_9 (c : Dev nD) (t : Fin cfg1.N) :
    (iblk1 V c 9 t : Vec Ideal S1x1 .f32) (ix2 (0 : Fin 1) (0 : Fin 1)) = (V c main_v14 : S1x1.Idx → EReal) (ix2 (0 : Fin 1) (0 : Fin 1)) := by
  obtain ⟨-, -, -, -, -, -, -, -, -, -, e0, e1⟩ := idx_whole t
  show (V c main_v14 : S1x1.Idx → EReal) (((cfg1.win 9).blk t).view.emb (ix2 (0 : Fin 1) (0 : Fin 1))) = _
  refine congrArg _ (funext fun a => Fin.ext ?_)
  match a with
  | ⟨0, _⟩ => show win1_9.index t (0 : Fin 2) * 1 + 1 * 0 = 0; omega
  | ⟨1, _⟩ => show win1_9.index t (1 : Fin 2) * 1 + 1 * 0 = 0; omega

/-! ## The result array -/

theorem hz : (![0, 0] : Fin 2 → Nat) = fun _ => 0 := funext fun a => by fin_cases a <;> rfl

/-- Entry (e, d) of the message array, from the arrays as the region finds them. -/
def rowOut (c : Dev nD) (e : Fin 1000000) (d : Fin 64) : EReal :=
  Cert.Spec.aggRow (fun k => (V c main_v6 : S1000000x64.Idx → EReal) (ix2 e k))
    (fun k => (V c main_v7 : S1000000x64.Idx → EReal) (ix2 e k))
    ((V c main_arg1 : S1000000x1.Idx → EReal) (ix2 e (0 : Fin 1)))
    ((V c main_arg4 : S1000000x1.Idx → EReal) (ix2 e (0 : Fin 1)))
    (fun j k => (V c main_v8 : S64x64.Idx → EReal) (ix2 j k))
    (fun j k => (V c main_v9 : S64x64.Idx → EReal) (ix2 j k))
    (fun j => (V c main_v12 : S1x64.Idx → EReal) (ix2 (0 : Fin 1) j))
    (fun j => (V c main_v13 : S1x64.Idx → EReal) (ix2 (0 : Fin 1) j))
    (fun j => (V c main_arg9 : S1x64.Idx → EReal) (ix2 (0 : Fin 1) j))
    ((V c main_v14 : S1x1.Idx → EReal) (ix2 (0 : Fin 1) (0 : Fin 1))) d

/-- The message array as one function of the index. -/
def whole (c : Dev nD) : S1000000x64.Idx → EReal := fun i => rowOut V c ⟨(i 0).val, (i 0).isLt⟩ ⟨(i 1).val, (i 1).isLt⟩

theorem whole_ix2 (c : Dev nD) (e : Fin 1000000) (d : Fin 64) : whole V c (ix2 e d) = rowOut V c e d := rfl

/-- What point t writes back is block row t of the message array. -/
theorem flushed_eq (c : Dev nD) (t : Fin cfg1.N) :
    (dat1 (F := Ideal) V c).flushed 10 t = ((cfg1.win 10).blk t).view.read (Elt Ideal) (whole V c) := by
  show (cfg1.win 10).cut (grid1.coords t) ((dat1 (F := Ideal) V c).after 10 t) = _
  rw [after1_10]
  unfold out1_10
  rw [View.canon_unit_zero hz]
  simp only [View.ld_unit_zero (S := S10000x64) hz, View.ld_unit_zero (S := S64x64) hz, View.ld_unit_zero (S := S10000x1) hz,
    View.ld_unit_zero (S := S1x64) hz, View.ld_unit_zero (S := S1x1) hz]
  funext j
  obtain ⟨r, d, rfl⟩ : ∃ (r : Fin 10000) (d : Fin 64), j = ix2 r d := ⟨j 0, j 1, eq_ix2 j⟩
  obtain ⟨-, -, -, -, -, -, -, -, e0, e1⟩ := idx_rows t
  have hemb : ((cfg1.win 10).blk t).view.emb (ix2 r d) = ix2 (grow t r) d := by
    funext a
    apply Fin.ext
    match a with
    | ⟨0, _⟩ => show win1_10.index t 0 * 10000 + 1 * r.val = 10000 * t.val + r.val; rw [e0]; omega
    | ⟨1, _⟩ => show win1_10.index t 1 * 64 + 1 * d.val = d.val; rw [e1]; omega
  show k1_pay1 (F := Ideal) (k1_pay2 (iblk1 V c 1 t)) (k1_pay3 (iblk1 V c 0 t) (iblk1 V c 1 t) (iblk1 V c 4 t) (iblk1 V c 5 t)
      (iblk1 V c 2 t) (iblk1 V c 6 t) (iblk1 V c 7 t) (iblk1 V c 8 t)) (iblk1 V c 9 t) (iblk1 V c 3 t) (ix2 r d)
    = whole V c (((cfg1.win 10).blk t).view.emb (ix2 r d))
  rw [hemb, whole_ix2]
  refine (out_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) r d).trans ?_
  unfold rowOut
  have h0 : (fun k => (iblk1 V c 0 t : S10000x64.Idx → EReal) (ix2 r k))
      = fun k => (V c main_v6 : S1000000x64.Idx → EReal) (ix2 (grow t r) k) := funext fun k => iblk_0 V c t r k
  have h1 : (fun k => (iblk1 V c 1 t : S10000x64.Idx → EReal) (ix2 r k))
      = fun k => (V c main_v7 : S1000000x64.Idx → EReal) (ix2 (grow t r) k) := funext fun k => iblk_1 V c t r k
  have h4 : (fun j k => (iblk1 V c 4 t : S64x64.Idx → EReal) (ix2 j k)) = fun j k => (V c main_v8 : S64x64.Idx → EReal) (ix2 j k) :=
    funext fun j => funext fun k => iblk_4 V c t j k
  have h5 : (fun j k => (iblk1 V c 5 t : S64x64.Idx → EReal) (ix2 j k)) = fun j k => (V c main_v9 : S64x64.Idx → EReal) (ix2 j k) :=
    funext fun j => funext fun k => iblk_5 V c t j k
  have h6 : (fun j => (iblk1 V c 6 t : S1x64.Idx → EReal) (ix2 (0 : Fin 1) j)) = fun j => (V c main_v12 : S1x64.Idx → EReal) (ix2 (0 : Fin 1) j) :=
    funext fun j => iblk_6 V c t j
  have h7 : (fun j => (iblk1 V c 7 t : S1x64.Idx → EReal) (ix2 (0 : Fin 1) j)) = fun j => (V c main_v13 : S1x64.Idx → EReal) (ix2 (0 : Fin 1) j) :=
    funext fun j => iblk_7 V c t j
  have h8 : (fun j => (iblk1 V c 8 t : S1x64.Idx → EReal) (ix2 (0 : Fin 1) j)) = fun j => (V c main_arg9 : S1x64.Idx → EReal) (ix2 (0 : Fin 1) j) :=
    funext fun j => iblk_8 V c t j
  rw [h0, h1, h4, h5, h6, h7, h8, iblk_2, iblk_3, iblk_9]

/-- The result array after the run is the message array: every index lies in the block of the point its row number names
    (row e is in block row e / 10000), and every point writes its block back. -/
theorem arr_eq (c : Dev nD) : (dat1 (F := Ideal) V c).arrAt 10 cfg1.N = whole V c :=
  (dat1 (F := Ideal) V c).arrAt_eq_of_cover 10 (whole V c) (fun t _ => flushed_eq V c t) fun i => by
    have hN : grid1.N = 100 := N_1
    have hN' : cfg1.N = 100 := N_1
    have hi0 : (i 0 : Nat) < 1000000 := (i 0).isLt
    have hi1 : (i 1 : Nat) < 64 := (i 1).isLt
    have hq : (i 0 : Nat) / 10000 < cfg1.N := by omega
    obtain ⟨-, -, -, -, -, -, -, -, e0', e1⟩ := idx_rows ⟨(i 0 : Nat) / 10000, hq⟩
    have e0 : win1_10.index ⟨(i 0 : Nat) / 10000, hq⟩ (0 : Fin 2) = (i 0 : Nat) / 10000 := e0'
    refine ⟨⟨(i 0 : Nat) / 10000, hq⟩, flush1_10 _, ?_⟩
    show i ∈ ((View.whole main_v15).slice (win1_10.rect ⟨(i 0 : Nat) / 10000, hq⟩)).set
    rw [View.set_slice_whole, Rect.mem_set_unit]
    intro a
    match a with
    | ⟨0, _⟩ =>
      show win1_10.index ⟨(i 0 : Nat) / 10000, hq⟩ 0 * 10000 ≤ (i 0 : Nat) ∧ (i 0 : Nat) < win1_10.index ⟨(i 0 : Nat) / 10000, hq⟩ 0 * 10000 + 10000
      rw [e0]; omega
    | ⟨1, _⟩ =>
      show win1_10.index ⟨(i 0 : Nat) / 10000, hq⟩ 1 * 64 ≤ (i 1 : Nat) ∧ (i 1 : Nat) < win1_10.index ⟨(i 0 : Nat) / 10000, hq⟩ 1 * 64 + 64
      rw [e1]; omega

/-- Entry (e, d) of the attention kernel's result array after its run. -/
theorem final1 (c : Dev nD) (e : Fin 1000000) (d : Fin 64) :
    ((dat1 (F := Ideal) V c).arrAt 10 cfg1.N : S1000000x64.Idx → EReal) (ix2 e d)
      = Cert.Spec.aggRow (fun k => (V c main_v6 : S1000000x64.Idx → EReal) (ix2 e k))
          (fun k => (V c main_v7 : S1000000x64.Idx → EReal) (ix2 e k))
          ((V c main_arg1 : S1000000x1.Idx → EReal) (ix2 e (0 : Fin 1)))
          ((V c main_arg4 : S1000000x1.Idx → EReal) (ix2 e (0 : Fin 1)))
          (fun j k => (V c main_v8 : S64x64.Idx → EReal) (ix2 j k))
          (fun j k => (V c main_v9 : S64x64.Idx → EReal) (ix2 j k))
          (fun j => (V c main_v12 : S1x64.Idx → EReal) (ix2 (0 : Fin 1) j))
          (fun j => (V c main_v13 : S1x64.Idx → EReal) (ix2 (0 : Fin 1) j))
          (fun j => (V c main_arg9 : S1x64.Idx → EReal) (ix2 (0 : Fin 1) j))
          ((V c main_v14 : S1x1.Idx → EReal) (ix2 (0 : Fin 1) (0 : Fin 1))) d :=
  congrFun (arr_eq V c) (ix2 e d)

end Cert.KernelIdeal.Attn

end
-- ==== Proof.NormBlock.lean ====
/- The normalisation kernel: what its result array holds after the run, entry by entry.

   The kernel runs over ten grid points; point `t` reads rows `10000 t … 10000 t + 9999` of the summed messages and of the
   projected rows, the whole scale row and shift row, and writes the same rows of the result. Each entry of what it writes
   depends on ONE row of the large operands: the residual row (messages times one hundredth plus the projected row), its
   mean over the 64 lanes, the mean of the squared deviations, the reciprocal square root with the stabiliser added, the
   scale and the shift, and silu. So the block a point writes is the block of one whole-array function, and the ten blocks
   cover the array. -/
import proofs.«426974_j57655640981900_3_alg».proof.Proof.Gen.KernelIdeal.Frame
import proofs.«426974_j57655640981900_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Norm

open Cert.KernelIdeal Cert.KernelIdeal.Gen

/-! ## The payload at an entry -/

/-- The named constant of the residual is the real number one hundredth. -/
theorem inv_100 : Named.named (F := Ideal) Cert.KernelIdeal.κ "inv_100" (φ := .f32) 0x3C23D70A#32 = ((1 / 100 : ℝ) : EReal) :=
  IdealRules.named_const.ideal_named_scalar _ _ _ _ rfl

/-- The residual block: the summed messages times one hundredth, plus the projected rows. -/
def res (x0 x1 : Vec Ideal S10000x64 .f32) : FVec Ideal S10000x64 .f32 :=
  addf (mulf (shapeCast S10000x64 x0 Facts₀.shapeCasts_S10000x64_S10000x64)
      (broadcast S10000x64 (Named.named (F := Ideal) κ "inv_100" (φ := .f32) 0x3C23D70A#32)))
    (shapeCast S10000x64 x1 Facts₀.shapeCasts_S10000x64_S10000x64)

/-- An entry of the residual block reads row `r` of the two operand blocks only. -/
theorem res_apply (x0 x1 : Vec Ideal S10000x64 .f32) (r : Fin 10000) (d : Fin 64) :
    res x0 x1 (ix2 r d) = Cert.Spec.outRow (fun k => x0 (ix2 r k)) (fun k => x1 (ix2 r k)) d := by
  unfold res
  rw [shapeCast_self, shapeCast_self]
  show x0 (ix2 r d) * Named.named (F := Ideal) κ "inv_100" (φ := .f32) 0x3C23D70A#32 + x1 (ix2 r d) = _
  rw [inv_100]
  rfl

/-- The mean over the 64 lanes of each row of a block, as a column: the lane sum divided by the literal 64.0. -/
def rowMean (u : FVec Ideal S10000x64 .f32) : FVec Ideal S10000x1 .f32 :=
  divf (shapeCast S10000x1 (multiReduction .add [1] S10000 u 0x00000000#32 Facts₀.reduces_S10000x64_S10000 (.inl rfl) rfl) Facts₀.shapeCasts_S10000_S10000x1)
    (broadcast S10000x1 (Scalar.ofBits (F := Ideal) .f32 0x42800000#32))

/-- The reduced index `r` with lane `k` put back on the dropped axis is `(r, k)`. -/
theorem lift_ix (r : Fin 10000) (k : Fin 64) :
    (Facts₀.reduces_S10000x64_S10000).lift (ix1 r) k = ix2 r k := by
  funext a
  apply Fin.ext
  match a with
  | ⟨0, _⟩ => rfl
  | ⟨1, _⟩ => rfl

/-- Row `r` of the column of means is the mean of row `r`. -/
theorem rowMean_apply (u : FVec Ideal S10000x64 .f32) (r : Fin 10000) (q : Fin 1) :
    rowMean u (ix2 r q) = Cert.Spec.meanOf (fun k => u (ix2 r k)) := by
  unfold rowMean
  rw [divf_apply, broadcast_apply]
  rw [shapeCast_apply _ Facts₀.shapeCasts_S10000_S10000x1 (ix2 r q) (ix1 r) (by
    rw [Shape.rowMajor_val_two, Shape.rowMajor_val_one]
    show r.val = r.val * 1 + q.val
    have := q.isLt; omega)]
  have hsum : multiReduction .add [1] S10000 u 0x00000000#32 Facts₀.reduces_S10000x64_S10000 (.inl rfl) rfl (ix1 r)
      = ∑ k : Fin 64, u (ix2 r k) := by
    refine (Ideal.multiReduction_add_single u _ Facts₀.reduces_S10000x64_S10000 _ _ (ix1 r)).trans ?_
    exact Finset.sum_congr rfl fun k _ => congrArg u (lift_ix r k)
  exact congrArg (fun z => Ideal.div z (Ideal.ofBits .f32 0x42800000#32)) hsum

/-- A column broadcast over the lanes reads its row. -/
theorem bcol_apply (w : FVec Ideal S10000x1 .f32) (r : Fin 10000) (d : Fin 64) :
    broadcastTo S10000x64 w Facts₀.broadcasts_S10000x1_S10000x64 (ix2 r d) = w (ix2 r (0 : Fin 1)) := by
  refine broadcastTo_apply w _ (ix2 r d) (ix2 r (0 : Fin 1)) fun ax => ?_
  match ax with
  | ⟨0, _⟩ => rfl
  | ⟨1, _⟩ => rfl

/-- A block with each row's mean taken off. -/
def cen (u : FVec Ideal S10000x64 .f32) : FVec Ideal S10000x64 .f32 :=
  subf u (broadcastTo S10000x64 (rowMean u) Facts₀.broadcasts_S10000x1_S10000x64)

theorem cen_apply (u : FVec Ideal S10000x64 .f32) (r : Fin 10000) (d : Fin 64) :
    cen u (ix2 r d) = u (ix2 r d) - Cert.Spec.meanOf (fun k => u (ix2 r k)) := by
  unfold cen
  rw [subf_apply, bcol_apply, rowMean_apply]

/-- The reciprocal square root of each row's mean squared deviation plus the stabiliser, as a column. -/
def rstd (u : FVec Ideal S10000x64 .f32) : FVec Ideal S10000x1 .f32 :=
  rsqrt (addf (rowMean (mulf (cen u) (cen u))) (broadcast S10000x1 (Scalar.ofBits (F := Ideal) .f32 0x3727C5AC#32)))

theorem rstd_apply (u : FVec Ideal S10000x64 .f32) (r : Fin 10000) (q : Fin 1) :
    rstd u (ix2 r q)
      = Ideal.rsqrt (Cert.Spec.meanOf (fun k => (u (ix2 r k) - Cert.Spec.meanOf (fun k' => u (ix2 r k')))
            * (u (ix2 r k) - Cert.Spec.meanOf (fun k' => u (ix2 r k'))))
          + Ideal.ofBits .f32 0x3727C5AC#32) := by
  unfold rstd
  show Ideal.rsqrt (rowMean (mulf (cen u) (cen u)) (ix2 r q) + Ideal.ofBits .f32 0x3727C5AC#32) = _
  rw [rowMean_apply]
  simp only [mulf_apply, cen_apply]

/-- The normalised, scaled and shifted block, before the activation. -/
def pre (x0 x1 : Vec Ideal S10000x64 .f32) (x2 x3 : Vec Ideal S1x64 .f32) : FVec Ideal S10000x64 .f32 :=
  addf (mulf (mulf (cen (res x0 x1)) (broadcastTo S10000x64 (rstd (res x0 x1)) Facts₀.broadcasts_S10000x1_S10000x64))
      (broadcastTo S10000x64 (shapeCast S1x64 (shapeCast S1x64 x2 Facts₀.shapeCasts_S1x64_S1x64) Facts₀.shapeCasts_S1x64_S1x64) Facts₀.broadcasts_S1x64_S10000x64))
    (broadcastTo S10000x64 (shapeCast S1x64 (shapeCast S1x64 x3 Facts₀.shapeCasts_S1x64_S1x64) Facts₀.shapeCasts_S1x64_S1x64) Facts₀.broadcasts_S1x64_S10000x64)

/-- The payload is the pre-activation block times its logistic. -/
theorem pay_eq (x0 x1 : Vec Ideal S10000x64 .f32) (x2 x3 : Vec Ideal S1x64 .f32) :
    k2_pay1 (F := Ideal) x0 x1 x2 x3 = mulf (pre x0 x1 x2 x3) (logistic (pre x0 x1 x2 x3)) := rfl

/-- Entry `(r, d)` of the payload is the row function of row `r` of the two large blocks and the one row of the small ones. -/
theorem pay_apply (x0 x1 : Vec Ideal S10000x64 .f32) (x2 x3 : Vec Ideal S1x64 .f32) (r : Fin 10000) (d : Fin 64) :
    k2_pay1 (F := Ideal) x0 x1 x2 x3 (ix2 r d)
      = Cert.Spec.normRow (fun k => x0 (ix2 r k)) (fun k => x1 (ix2 r k))
          (fun k => x2 (ix2 (0 : Fin 1) k)) (fun k => x3 (ix2 (0 : Fin 1) k)) d := by
  have hpre : pre x0 x1 x2 x3 (ix2 r d)
      = (Cert.Spec.outRow (fun k => x0 (ix2 r k)) (fun k => x1 (ix2 r k)) d
            - Cert.Spec.meanOf (Cert.Spec.outRow (fun k => x0 (ix2 r k)) (fun k => x1 (ix2 r k))))
          * Ideal.rsqrt (Cert.Spec.meanOf (fun k =>
                (Cert.Spec.outRow (fun k => x0 (ix2 r k)) (fun k => x1 (ix2 r k)) k
                  - Cert.Spec.meanOf (Cert.Spec.outRow (fun k => x0 (ix2 r k)) (fun k => x1 (ix2 r k))))
                * (Cert.Spec.outRow (fun k => x0 (ix2 r k)) (fun k => x1 (ix2 r k)) k
                  - Cert.Spec.meanOf (Cert.Spec.outRow (fun k => x0 (ix2 r k)) (fun k => x1 (ix2 r k)))))
              + Ideal.ofBits .f32 0x3727C5AC#32)
          * x2 (ix2 (0 : Fin 1) d) + x3 (ix2 (0 : Fin 1) d) := by
    unfold pre
    rw [addf_apply, mulf_apply, mulf_apply, cen_apply, bcol_apply, rstd_apply,
      broadcastTo_1b_ab_apply, broadcastTo_1b_ab_apply, shapeCast_self, shapeCast_self, shapeCast_self, shapeCast_self]
    simp only [res_apply]
  rw [pay_eq]
  show pre x0 x1 x2 x3 (ix2 r d) * Ideal.logistic (pre x0 x1 x2 x3 (ix2 r d)) = _
  rw [hpre]
  rfl

/-! ## The windows' blocks, read at an entry -/

/-- The grid of the normalisation kernel has ten points. -/
theorem N2 : cfg2.N = 10 := by decide

/-- The index maps, decided once over the grid: the row-blocked windows sit at block `(t, 0)`, the small ones at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- Row `r` of the block of the summed messages at point `t` is row `10000 t + r` of the array. -/
theorem iblk2_0_apply (c : Dev nD) (t : Fin cfg2.N) (r : Fin 10000) (k : Fin 64) (n : Fin 100000)
    (hn : n.val = 10000 * t.val + r.val) :
    (iblk2 (F := Ideal) V c 0 t : Vec Ideal S10000x64 .f32) (ix2 r k) = (V c main_v18 : S100000x64.Idx → EReal) (ix2 n k) := by
  obtain ⟨e0, e1, -⟩ := idx_facts t
  unfold iblk2
  rw [View.read_apply]
  show (V c main_v18 : S100000x64.Idx → EReal) _ = _
  congr 1
  funext a
  apply Fin.ext
  match a with
  | ⟨0, _⟩ => show win2_0.index t (0 : Fin 2) * 10000 + 1 * r.val = n.val; rw [e0, hn]; omega
  | ⟨1, _⟩ => show win2_0.index t (1 : Fin 2) * 64 + 1 * k.val = k.val; rw [e1]; omega

/-- Row `r` of the block of the projected rows at point `t` is row `10000 t + r` of the array. -/
theorem iblk2_1_apply (c : Dev nD) (t : Fin cfg2.N) (r : Fin 10000) (k : Fin 64) (n : Fin 100000)
    (hn : n.val = 10000 * t.val + r.val) :
    (iblk2 (F := Ideal) V c 1 t : Vec Ideal S10000x64 .f32) (ix2 r k) = (V c main_v1 : S100000x64.Idx → EReal) (ix2 n k) := by
  obtain ⟨-, -, e0, e1, -⟩ := idx_facts t
  unfold iblk2
  rw [View.read_apply]
  show (V c main_v1 : S100000x64.Idx → EReal) _ = _
  congr 1
  funext a
  apply Fin.ext
  match a with
  | ⟨0, _⟩ => show win2_1.index t (0 : Fin 2) * 10000 + 1 * r.val = n.val; rw [e0, hn]; omega
  | ⟨1, _⟩ => show win2_1.index t (1 : Fin 2) * 64 + 1 * k.val = k.val; rw [e1]; omega

/-- The block of the scale row at any point is the whole one-row array. -/
theorem iblk2_2_apply (c : Dev nD) (t : Fin cfg2.N) (j : Fin 1) (k : Fin 64) :
    (iblk2 (F := Ideal) V c 2 t : Vec Ideal S1x64 .f32) (ix2 j k) = (V c main_v19 : S1x64.Idx → EReal) (ix2 j k) := by
  obtain ⟨-, -, -, -, e0, e1, -⟩ := idx_facts t
  unfold iblk2
  rw [View.read_apply]
  show (V c main_v19 : S1x64.Idx → EReal) _ = _
  congr 1
  funext a
  apply Fin.ext
  match a with
  | ⟨0, _⟩ => show win2_2.index t (0 : Fin 2) * 1 + 1 * j.val = j.val; rw [e0]; omega
  | ⟨1, _⟩ => show win2_2.index t (1 : Fin 2) * 64 + 1 * k.val = k.val; rw [e1]; omega

/-- The block of the shift row at any point is the whole one-row array. -/
theorem iblk2_3_apply (c : Dev nD) (t : Fin cfg2.N) (j : Fin 1) (k : Fin 64) :
    (iblk2 (F := Ideal) V c 3 t : Vec Ideal S1x64 .f32) (ix2 j k) = (V c main_v20 : S1x64.Idx → EReal) (ix2 j k) := by
  obtain ⟨-, -, -, -, -, -, e0, e1, -⟩ := idx_facts t
  unfold iblk2
  rw [View.read_apply]
  show (V c main_v20 : S1x64.Idx → EReal) _ = _
  congr 1
  funext a
  apply Fin.ext
  match a with
  | ⟨0, _⟩ => show win2_3.index t (0 : Fin 2) * 1 + 1 * j.val = j.val; rw [e0]; omega
  | ⟨1, _⟩ => show win2_3.index t (1 : Fin 2) * 64 + 1 * k.val = k.val; rw [e1]; omega

/-! ## What a point writes back, the cover, the result array -/

theorem hz : (![0, 0] : Fin 2 → Nat) = fun _ => 0 := funext fun a => by fin_cases a <;> rfl

/-- Entry `(n, d)` of the result: the row function of row `n` of the two large operand arrays and the two one-row arrays. -/
def rowFn (c : Dev nD) (n : Fin 100000) (d : Fin 64) : EReal :=
  Cert.Spec.normRow (fun k => (V c main_v18 : S100000x64.Idx → EReal) (ix2 n k))
    (fun k => (V c main_v1 : S100000x64.Idx → EReal) (ix2 n k))
    (fun k => (V c main_v19 : S1x64.Idx → EReal) (ix2 (0 : Fin 1) k))
    (fun k => (V c main_v20 : S1x64.Idx → EReal) (ix2 (0 : Fin 1) k)) d

/-- The whole result array as one function of the operand arrays. -/
def G (c : Dev nD) : S100000x64.Idx → EReal := fun i => rowFn V c ⟨(i 0).val, (i 0).isLt⟩ ⟨(i 1).val, (i 1).isLt⟩

/-- What point `t` writes back is block `t` of `G`: rows `10000 t … 10000 t + 9999`. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 (F := Ideal) V c).after 4 t) = _
  rw [after2_4]
  unfold out2_4
  rw [View.canon_unit_zero hz]
  simp only [View.ld_unit_zero (S := S10000x64) hz, View.ld_unit_zero (S := S1x64) hz]
  obtain ⟨-, -, -, -, -, -, -, -, e0, e1⟩ := idx_facts t
  have hN : cfg2.N = 10 := N2
  have ht : t.val < cfg2.N := t.isLt
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hemb : ((cfg2.win 4).blk t).view.emb (ix2 p q) = (ix2 (⟨10000 * t.val + p.val, by omega⟩ : Fin 100000) q : S100000x64.Idx) := by
    funext a
    apply Fin.ext
    match a with
    | ⟨0, _⟩ => show win2_4.index t (0 : Fin 2) * 10000 + 1 * p.val = 10000 * t.val + p.val; rw [e0]; omega
    | ⟨1, _⟩ => show win2_4.index t (1 : Fin 2) * 64 + 1 * q.val = q.val; rw [e1]; omega
  show k2_pay1 (F := Ideal) (iblk2 V c 0 t) (iblk2 V c 1 t) (iblk2 V c 2 t) (iblk2 V c 3 t) (ix2 p q)
      = G V c (((cfg2.win 4).blk t).view.emb (ix2 p q))
  rw [hemb]
  refine (pay_apply _ _ _ _ p q).trans ?_
  show _ = rowFn V c ⟨10000 * t.val + p.val, by omega⟩ q
  unfold rowFn
  have h0 := fun k => iblk2_0_apply V c t p k ⟨10000 * t.val + p.val, by omega⟩ rfl
  have h1 := fun k => iblk2_1_apply V c t p k ⟨10000 * t.val + p.val, by omega⟩ rfl
  have h2 := fun k => iblk2_2_apply V c t 0 k
  have h3 := fun k => iblk2_3_apply V c t 0 k
  simp only [h0, h1, h2, h3]

/-- The result array after the run is `G`: every index lies in the block of the point its row number names (row `n` is
    in block row `n / 10000`), and every point writes its block back. -/
theorem arr_eq (c : Dev nD) : (dat2 (F := Ideal) V c).arrAt 4 cfg2.N = G V c :=
  (dat2 (F := Ideal) V c).arrAt_eq_of_cover 4 (G V c) (fun t _ => flushed_eq V c t) fun i => by
    have hN : grid2.N = 10 := N2
    have hN' : cfg2.N = 10 := N2
    have hi0 : (i 0 : Nat) < 100000 := (i 0).isLt
    have hi1 : (i 1 : Nat) < 64 := (i 1).isLt
    have hq : (i 0 : Nat) / 10000 < cfg2.N := by omega
    obtain ⟨-, -, -, -, -, -, -, -, e0', e1⟩ := idx_facts ⟨(i 0 : Nat) / 10000, hq⟩
    have e0 : win2_4.index ⟨(i 0 : Nat) / 10000, hq⟩ (0 : Fin 2) = (i 0 : Nat) / 10000 := e0'
    refine ⟨⟨(i 0 : Nat) / 10000, hq⟩, flush2_4 _, ?_⟩
    show i ∈ ((View.whole main_v21).slice (win2_4.rect ⟨(i 0 : Nat) / 10000, hq⟩)).set
    rw [View.set_slice_whole, Rect.mem_set_unit]
    intro a
    match a with
    | ⟨0, _⟩ =>
      show win2_4.index ⟨(i 0 : Nat) / 10000, hq⟩ 0 * 10000 ≤ (i 0 : Nat) ∧ (i 0 : Nat) < win2_4.index ⟨(i 0 : Nat) / 10000, hq⟩ 0 * 10000 + 10000
      rw [e0]; omega
    | ⟨1, _⟩ =>
      show win2_4.index ⟨(i 0 : Nat) / 10000, hq⟩ 1 * 64 ≤ (i 1 : Nat) ∧ (i 1 : Nat) < win2_4.index ⟨(i 0 : Nat) / 10000, hq⟩ 1 * 64 + 64
      rw [e1]; omega

/-- Entry (n, d) of the normalisation kernel's result array after its run. -/
theorem final2 (c : Dev nD) (n : Fin 100000) (d : Fin 64) :
    ((dat2 (F := Ideal) V c).arrAt 4 cfg2.N : S100000x64.Idx → EReal) (ix2 n d)
      = Cert.Spec.normRow (fun k => (V c main_v18 : S100000x64.Idx → EReal) (ix2 n k))
          (fun k => (V c main_v1 : S100000x64.Idx → EReal) (ix2 n k))
          (fun k => (V c main_v19 : S1x64.Idx → EReal) (ix2 (0 : Fin 1) k))
          (fun k => (V c main_v20 : S1x64.Idx → EReal) (ix2 (0 : Fin 1) k)) d := by
  rw [arr_eq]
  rfl

end Cert.KernelIdeal.Norm

end
-- ==== Proof.RefAttn.lean ====
/- The reference's per-edge message, read at an entry. -/
import proofs.«426974_j57655640981900_3_alg».proof.Proof.RefRead
import proofs.«426974_j57655640981900_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Mathlib.Algebra.BigOperators.Fin

set_option maxRecDepth 16384

noncomputable section

open Idealize.ShloMosaic Idealize.ShloMosaic.TcCoe Idealize.SL.Sem
open Idealize.ShloMosaic.ValueIdx

namespace Cert.ReferenceIdeal.RefVal

open Cert.ReferenceIdeal Cert.ReferenceIdeal.Gen Cert.ReferenceIdeal.ReadP

/-! ### A sum over 129 columns

Addition on the extended reals is a commutative monoid, so the sum over the 129 columns of the concatenated row is the sum
over the first 64 columns, plus the sum over the next 64, plus the last term; no finiteness is needed. -/

/-- `Σ_{k<129} f k = Σ_{k<64} f k + Σ_{k<64} f (64 + k) + f 128`. -/
theorem agg_sum129 {M : Type*} [AddCommMonoid M] (f : Fin 129 → M) :
    ∑ k : Fin 129, f k
      = (∑ k : Fin 64, f (⟨k.val, by have := k.isLt; omega⟩ : Fin 129))
        + (∑ k : Fin 64, f (⟨64 + k.val, by have := k.isLt; omega⟩ : Fin 129)) + f (⟨128, by decide⟩ : Fin 129) := by
  have h1 := Fin.sum_univ_castSucc (n := 128) f
  have h2 := Fin.sum_univ_add (a := 64) (b := 64) (fun i : Fin (64 + 64) => f (Fin.castSucc i))
  exact h1.trans (congrArg (· + f (Fin.last 128)) h2)

/-! ### The concatenated row

Row `e` of the concatenation along the columns holds the source row in columns 0 … 63, the target row in columns
64 … 127 and the distance in column 128. -/

/-- Column `k < 64` of the concatenated row is column `k` of the gathered source row. -/
theorem agg_cat_lo (x0 : (⟨S100000x64, .f32⟩ : BufTy).Contents (Elt Ideal)) (x1 : (⟨S1000000x1, .f32⟩ : BufTy).Contents (Elt Ideal)) (x2 : (⟨S2x1000000, .i32⟩ : BufTy).Contents (Elt Ideal)) (x5 : (⟨S64x64, .f32⟩ : BufTy).Contents (Elt Ideal)) (x6 : (⟨S64, .f32⟩ : BufTy).Contents (Elt Ideal)) (e : Fin 1000000) (k : Fin 64) :
    val_main_v23 (F := Ideal) x0 x1 x2 x5 x6 (ix2 e (⟨k.val, by have := k.isLt; omega⟩ : Fin 129))
      = val_main_v15 (F := Ideal) x0 x2 x5 x6 (ix2 e k) := by
  unfold val_main_v23
  generalize val_main_v15 (F := Ideal) x0 x2 x5 x6 = y15
  generalize val_main_v22 (F := Ideal) x0 x2 x5 x6 = y22
  exact concatenate_apply_piece (t := S1000000x129) 1
    ([⟨S1000000x64, y15⟩, ⟨S1000000x64, y22⟩, ⟨S1000000x1, x1⟩] : List ((s : Shape) × (s.Idx → _)))
    concatenates_S1000000x64_S1000000x64_S1000000x1_S1000000x129_d1 _
    0 (show (0 : Nat) < 3 by omega) S1000000x64 y15 rfl rfl 0 rfl (ix2 e k)
    (fun b hb => by
      match b with
      | ⟨0, _⟩ => rfl
      | ⟨1, _⟩ => exact absurd (Fin.ext rfl) hb)
    (Nat.zero_add _)

/-- Column `64 + k` of the concatenated row is column `k` of the gathered target row. -/
theorem agg_cat_mid (x0 : (⟨S100000x64, .f32⟩ : BufTy).Contents (Elt Ideal)) (x1 : (⟨S1000000x1, .f32⟩ : BufTy).Contents (Elt Ideal)) (x2 : (⟨S2x1000000, .i32⟩ : BufTy).Contents (Elt Ideal)) (x5 : (⟨S64x64, .f32⟩ : BufTy).Contents (Elt Ideal)) (x6 : (⟨S64, .f32⟩ : BufTy).Contents (Elt Ideal)) (e : Fin 1000000) (k : Fin 64) :
    val_main_v23 (F := Ideal) x0 x1 x2 x5 x6 (ix2 e (⟨64 + k.val, by have := k.isLt; omega⟩ : Fin 129))
      = val_main_v22 (F := Ideal) x0 x2 x5 x6 (ix2 e k) := by
  unfold val_main_v23
  generalize val_main_v15 (F := Ideal) x0 x2 x5 x6 = y15
  generalize val_main_v22 (F := Ideal) x0 x2 x5 x6 = y22
  exact concatenate_apply_piece (t := S1000000x129) 1
    ([⟨S1000000x64, y15⟩, ⟨S1000000x64, y22⟩, ⟨S1000000x1, x1⟩] : List ((s : Shape) × (s.Idx → _)))
    concatenates_S1000000x64_S1000000x64_S1000000x1_S1000000x129_d1 _
    1 (show (1 : Nat) < 3 by omega) S1000000x64 y22 rfl rfl 64 rfl (ix2 e k)
    (fun b hb => by
      match b with
      | ⟨0, _⟩ => rfl
      | ⟨1, _⟩ => exact absurd (Fin.ext rfl) hb)
    rfl

/-- Column 128 of the concatenated row is the edge's distance. -/
theorem agg_cat_last (x0 : (⟨S100000x64, .f32⟩ : BufTy).Contents (Elt Ideal)) (x1 : (⟨S1000000x1, .f32⟩ : BufTy).Contents (Elt Ideal)) (x2 : (⟨S2x1000000, .i32⟩ : BufTy).Contents (Elt Ideal)) (x5 : (⟨S64x64, .f32⟩ : BufTy).Contents (Elt Ideal)) (x6 : (⟨S64, .f32⟩ : BufTy).Contents (Elt Ideal)) (e : Fin 1000000) :
    val_main_v23 (F := Ideal) x0 x1 x2 x5 x6 (ix2 e (⟨128, by decide⟩ : Fin 129)) = x1 (ix2 e (0 : Fin 1)) := by
  unfold val_main_v23
  generalize val_main_v15 (F := Ideal) x0 x2 x5 x6 = y15
  generalize val_main_v22 (F := Ideal) x0 x2 x5 x6 = y22
  exact concatenate_apply_piece (t := S1000000x129) 1
    ([⟨S1000000x64, y15⟩, ⟨S1000000x64, y22⟩, ⟨S1000000x1, x1⟩] : List ((s : Shape) × (s.Idx → _)))
    concatenates_S1000000x64_S1000000x64_S1000000x1_S1000000x129_d1 _
    2 (show (2 : Nat) < 3 by omega) S1000000x1 x1 rfl rfl 128 rfl (ix2 e (0 : Fin 1))
    (fun b hb => by
      match b with
      | ⟨0, _⟩ => rfl
      | ⟨1, _⟩ => exact absurd (Fin.ext rfl) hb)
    rfl

/-! ### The hidden pre-activation -/

/-- Entry (e, j) of the hidden pre-activation: the 129-wide contraction of the concatenated row with row `j` of the
    weight, split into the source part, the target part and the distance term, plus the bias. -/
theorem agg_pre (x0 : (⟨S100000x64, .f32⟩ : BufTy).Contents (Elt Ideal)) (x1 : (⟨S1000000x1, .f32⟩ : BufTy).Contents (Elt Ideal)) (x2 : (⟨S2x1000000, .i32⟩ : BufTy).Contents (Elt Ideal)) (x5 : (⟨S64x64, .f32⟩ : BufTy).Contents (Elt Ideal)) (x6 : (⟨S64, .f32⟩ : BufTy).Contents (Elt Ideal)) (x7 : (⟨S64x129, .f32⟩ : BufTy).Contents (Elt Ideal)) (x8 : (⟨S64, .f32⟩ : BufTy).Contents (Elt Ideal)) (e : Fin 1000000) (j : Fin 64) :
    val_main_v28 (F := Ideal) x0 x1 x2 x5 x6 x7 x8 (ix2 e j)
      = Cert.Spec.preRow (fun k => val_main_v15 (F := Ideal) x0 x2 x5 x6 (ix2 e k))
          (fun k => val_main_v22 (F := Ideal) x0 x2 x5 x6 (ix2 e k))
          (x1 (ix2 e (0 : Fin 1)))
          (fun j k => x7 (ix2 j (⟨k.val, by have := k.isLt; omega⟩ : Fin 129)))
          (fun j k => x7 (ix2 j (⟨64 + k.val, by have := k.isLt; omega⟩ : Fin 129)))
          (fun j => x7 (ix2 j (⟨128, by decide⟩ : Fin 129)))
          (fun j => x8 (ix1 j)) j := by
  have e1 : ∀ k : Fin 129, lidx_main_v25 (ix2 e j) k = ix2 e k := fun k =>
    funext fun a => Fin.ext (by match a with | ⟨0, _⟩ => rfl | ⟨1, _⟩ => rfl)
  have e2 : ∀ k : Fin 129, idx_main_v24 (ridx_main_v25 (ix2 e j) k) = ix2 j k := fun k =>
    funext fun a => Fin.ext (by match a with | ⟨0, _⟩ => rfl | ⟨1, _⟩ => rfl)
  have e3 : idx_main_v26 (idx_main_v27 (ix2 e j)) = ix1 j :=
    funext fun a => Fin.ext (by match a with | ⟨0, _⟩ => rfl)
  rw [val_main_v28_apply, val_main_v25_apply, val_main_v27_apply, val_main_v26_apply, e3]
  have hs : ∑ k : Fin 129, (val_main_v23 (F := Ideal) x0 x1 x2 x5 x6) (lidx_main_v25 (ix2 e j) k)
        * (val_main_v24 (F := Ideal) x7) (ridx_main_v25 (ix2 e j) k)
      = ∑ k : Fin 129, val_main_v23 (F := Ideal) x0 x1 x2 x5 x6 (ix2 e k) * x7 (ix2 j k) :=
    Finset.sum_congr rfl fun k _ => by rw [val_main_v24_apply, e1, e2]
  -- the 129 columns: the source part, the target part, the distance term, in the order of the specification
  rw [hs, agg_sum129 (fun k : Fin 129 => val_main_v23 (F := Ideal) x0 x1 x2 x5 x6 (ix2 e k) * x7 (ix2 j k))]
  simp only [agg_cat_lo, agg_cat_mid, agg_cat_last]
  rfl

/-! ### The activation

The outlined activation computes `v · (1 / (1 + e^(−v)))` with the literal one; that is `v` times the logistic of `v`. -/

/-- Entry `i` of the activated array is `silu` of the same entry of the pre-activation. -/
theorem agg_silu (x0 : (⟨S100000x64, .f32⟩ : BufTy).Contents (Elt Ideal)) (x1 : (⟨S1000000x1, .f32⟩ : BufTy).Contents (Elt Ideal)) (x2 : (⟨S2x1000000, .i32⟩ : BufTy).Contents (Elt Ideal)) (x5 : (⟨S64x64, .f32⟩ : BufTy).Contents (Elt Ideal)) (x6 : (⟨S64, .f32⟩ : BufTy).Contents (Elt Ideal)) (x7 : (⟨S64x129, .f32⟩ : BufTy).Contents (Elt Ideal)) (x8 : (⟨S64, .f32⟩ : BufTy).Contents (Elt Ideal)) (i : S1000000x64.Idx) :
    val_main_v29 (F := Ideal) x0 x1 x2 x5 x6 x7 x8 i = Cert.Spec.silu (val_main_v28 (F := Ideal) x0 x1 x2 x5 x6 x7 x8 i) := by
  rw [val_main_v29_apply, val_main_call0_v5_apply, val_main_call0_v4_apply, val_main_call0_cst_0_apply,
    val_main_call0_v3_apply, val_main_call0_v2_apply, val_main_call0_cst_apply, val_main_call0_v1_apply,
    val_main_call0_v0_apply]
  generalize val_main_v28 (F := Ideal) x0 x1 x2 x5 x6 x7 x8 i = v
  simp only [Ideal.mulf_def, Ideal.hostDivf_def, Ideal.addf_def, Ideal.hostUnary_exp_def, Ideal.hostNegf_def,
    Ideal.negf_def, Ideal.ofBits_def, Ideal.ofBits_one_f32]
  rfl

/-! ### The attention weight and the message -/

/-- Entry (e, d) of the reference's message array: the gathered target row scaled by the edge's attention weight, with the
    129-wide contraction of the concatenated row split into its two 64-wide parts and the distance term. -/
theorem ref_agg (x0 : (⟨S100000x64, .f32⟩ : BufTy).Contents (Elt Ideal)) (x1 : (⟨S1000000x1, .f32⟩ : BufTy).Contents (Elt Ideal)) (x2 : (⟨S2x1000000, .i32⟩ : BufTy).Contents (Elt Ideal))
    (x4 : (⟨S1000000x1, .f32⟩ : BufTy).Contents (Elt Ideal)) (x5 : (⟨S64x64, .f32⟩ : BufTy).Contents (Elt Ideal)) (x6 : (⟨S64, .f32⟩ : BufTy).Contents (Elt Ideal)) (x7 : (⟨S64x129, .f32⟩ : BufTy).Contents (Elt Ideal)) (x8 : (⟨S64, .f32⟩ : BufTy).Contents (Elt Ideal))
    (x9 : (⟨S1x64, .f32⟩ : BufTy).Contents (Elt Ideal)) (x10 : (⟨S1, .f32⟩ : BufTy).Contents (Elt Ideal)) (e : Fin 1000000) (d : Fin 64) :
    val_main_v43 (F := Ideal) x0 x1 x2 x4 x5 x6 x7 x8 x9 x10 (ix2 e d)
      = Cert.Spec.aggRow (fun k => val_main_v15 (F := Ideal) x0 x2 x5 x6 (ix2 e k))
          (fun k => val_main_v22 (F := Ideal) x0 x2 x5 x6 (ix2 e k))
          (x1 (ix2 e (0 : Fin 1))) (x4 (ix2 e (0 : Fin 1)))
          (fun j k => x7 (ix2 j (⟨k.val, by have := k.isLt; omega⟩ : Fin 129)))
          (fun j k => x7 (ix2 j (⟨64 + k.val, by have := k.isLt; omega⟩ : Fin 129)))
          (fun j => x7 (ix2 j (⟨128, by decide⟩ : Fin 129)))
          (fun j => x8 (ix1 j)) (fun j => x9 (ix2 (0 : Fin 1) j)) (x10 (ix1 (0 : Fin 1))) d := by
  have i42 : idx_main_v42 (ix2 e d) = ix2 e (0 : Fin 1) :=
    funext fun a => Fin.ext (by match a with | ⟨0, _⟩ => rfl | ⟨1, _⟩ => rfl)
  have i32 : idx_main_v32 (idx_main_v33 (ix2 e (0 : Fin 1))) = ix1 (0 : Fin 1) :=
    funext fun a => Fin.ext (by match a with | ⟨0, _⟩ => rfl)
  have l31 : ∀ k : Fin 64, lidx_main_v31 (ix2 e (0 : Fin 1)) k = ix2 e k := fun k =>
    funext fun a => Fin.ext (by match a with | ⟨0, _⟩ => rfl | ⟨1, _⟩ => rfl)
  have r31 : ∀ k : Fin 64, idx_main_v30 (ridx_main_v31 (ix2 e (0 : Fin 1)) k) = ix2 (0 : Fin 1) k := fun k =>
    funext fun a => Fin.ext (by match a with | ⟨0, _⟩ => rfl | ⟨1, _⟩ => rfl)
  rw [val_main_v43_apply, val_main_v42_apply, i42, val_main_v41_apply, val_main_v40_apply, val_main_v39_apply,
    val_main_cst_3_apply, val_main_v38_apply, val_main_v37_apply, val_main_cst_apply, val_main_v36_apply,
    val_main_v35_apply, val_main_v34_apply, val_main_v31_apply, val_main_v33_apply, val_main_v32_apply, i32]
  have hs : ∑ k : Fin 64, (val_main_v29 (F := Ideal) x0 x1 x2 x5 x6 x7 x8) (lidx_main_v31 (ix2 e (0 : Fin 1)) k)
        * (val_main_v30 (F := Ideal) x9) (ridx_main_v31 (ix2 e (0 : Fin 1)) k)
      = ∑ k : Fin 64, Cert.Spec.silu (Cert.Spec.preRow (fun k => val_main_v15 (F := Ideal) x0 x2 x5 x6 (ix2 e k))
          (fun k => val_main_v22 (F := Ideal) x0 x2 x5 x6 (ix2 e k))
          (x1 (ix2 e (0 : Fin 1)))
          (fun j k => x7 (ix2 j (⟨k.val, by have := k.isLt; omega⟩ : Fin 129)))
          (fun j k => x7 (ix2 j (⟨64 + k.val, by have := k.isLt; omega⟩ : Fin 129)))
          (fun j => x7 (ix2 j (⟨128, by decide⟩ : Fin 129)))
          (fun j => x8 (ix1 j)) k) * x9 (ix2 (0 : Fin 1) k) :=
    Finset.sum_congr rfl fun k _ => by rw [val_main_v30_apply, l31, r31, agg_silu, agg_pre]
  rw [hs]
  -- what is left is `xc d · (1 / (1 + e^(−(Σⱼ silu (pre j) · w2 j + b2))) · emask)` with the literal one: the logistic by its definition
  simp only [Ideal.mulf_def, Ideal.hostDivf_def, Ideal.addf_def, Ideal.hostUnary_exp_def, Ideal.hostNegf_def,
    Ideal.negf_def, Ideal.ofBits_def, Ideal.ofBits_one_f32]
  rfl

end Cert.ReferenceIdeal.RefVal

end
-- ==== Proof.RefNorm.lean ====
/- The reference's projection and its final normalisation stage, read at an entry. -/
import proofs.«426974_j57655640981900_3_alg».proof.Proof.RefRead
import proofs.«426974_j57655640981900_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.ValueIdx

namespace Cert.ReferenceIdeal.RefVal

open Cert.ReferenceIdeal Cert.ReferenceIdeal.Gen Cert.ReferenceIdeal.ReadP

/-! ### The composed index maps, as coordinates -/

theorem lidx_v1_eq (n : Fin 100000) (d k : Fin 64) : lidx_main_v1 (ix2 n d) k = ix2 n k :=
  funext fun a => Fin.ext (by match a with | ⟨0, _⟩ => rfl | ⟨1, _⟩ => rfl)

theorem ridx_v1_eq (n : Fin 100000) (d k : Fin 64) : idx_main_v0 (ridx_main_v1 (ix2 n d) k) = ix2 d k :=
  funext fun a => Fin.ext (by match a with | ⟨0, _⟩ => rfl | ⟨1, _⟩ => rfl)

theorem idx_v3_eq (n : Fin 100000) (d : Fin 64) : idx_main_v2 (idx_main_v3 (ix2 n d)) = ix1 d :=
  funext fun a => Fin.ext (by match a with | ⟨0, _⟩ => rfl)

theorem idx_v69_eq (n : Fin 100000) (d : Fin 64) : idx_main_v68 (idx_main_v69 (ix2 n d)) = ix1 d :=
  funext fun a => Fin.ext (by match a with | ⟨0, _⟩ => rfl)

theorem idx_v72_eq (n : Fin 100000) (d : Fin 64) : idx_main_v71 (idx_main_v72 (ix2 n d)) = ix1 d :=
  funext fun a => Fin.ext (by match a with | ⟨0, _⟩ => rfl)

theorem idx_v54_eq (n : Fin 100000) (d : Fin 64) : idx_main_v54 (ix2 n d) = ix2 n (0 : Fin 1) :=
  funext fun a => Fin.ext (by match a with | ⟨0, _⟩ => rfl | ⟨1, _⟩ => rfl)

theorem idx_v61_eq (n : Fin 100000) (d : Fin 64) : idx_main_v61 (ix2 n d) = ix2 n (0 : Fin 1) :=
  funext fun a => Fin.ext (by match a with | ⟨0, _⟩ => rfl | ⟨1, _⟩ => rfl)

theorem idx_v66_eq (n : Fin 100000) (d : Fin 64) : idx_main_v66 (ix2 n d) = ix2 n (0 : Fin 1) :=
  funext fun a => Fin.ext (by match a with | ⟨0, _⟩ => rfl | ⟨1, _⟩ => rfl)

theorem idx_v51_eq (n : Fin 100000) : idx_main_v51 (ix2 n (0 : Fin 1)) = ix1 n :=
  funext fun a => Fin.ext (by match a with | ⟨0, _⟩ => rfl)

theorem idx_v58_eq (n : Fin 100000) : idx_main_v58 (ix2 n (0 : Fin 1)) = ix1 n :=
  funext fun a => Fin.ext (by match a with | ⟨0, _⟩ => rfl)

theorem idx_v50_eq (n : Fin 100000) (k : Fin 64) : idx_main_v50 (ix1 n) k = ix2 n k :=
  funext fun a => Fin.ext (by match a with | ⟨0, _⟩ => rfl | ⟨1, _⟩ => rfl)

theorem idx_v57_eq (n : Fin 100000) (k : Fin 64) : idx_main_v57 (ix1 n) k = ix2 n k :=
  funext fun a => Fin.ext (by match a with | ⟨0, _⟩ => rfl | ⟨1, _⟩ => rfl)

/-! ### The literal of the division -/

/-- The float literal 100.0 is the real number one hundred. -/
theorem ofBits_hundred_f32 : Ideal.ofBits .f32 0x42C80000#32 = ((100 : ℝ) : EReal) := by
  simp [Ideal.ofBits, Ideal.ieee, -EReal.coe_mul]; norm_num

/-! ### The projection -/

/-- Entry (n, d) of the reference's projected array. -/
theorem ref_lin (x0 : (⟨S100000x64, .f32⟩ : BufTy).Contents (Elt Ideal)) (x5 : (⟨S64x64, .f32⟩ : BufTy).Contents (Elt Ideal)) (x6 : (⟨S64, .f32⟩ : BufTy).Contents (Elt Ideal)) (n : Fin 100000) (d : Fin 64) :
    val_main_v4 (F := Ideal) x0 x5 x6 (ix2 n d)
      = Cert.Spec.linRow (fun k => x0 (ix2 n k)) (fun j k => x5 (ix2 j k)) (fun j => x6 (ix1 j)) d := by
  rw [val_main_v4_apply, val_main_v1_apply, val_main_v3_apply, val_main_v2_apply, idx_v3_eq]
  simp only [val_main_v0_apply, lidx_v1_eq, ridx_v1_eq, Ideal.addf_def]
  rfl

/-! ### The normalisation, stage by stage, on the row of one node -/

section Norm

variable (x0 : (⟨S100000x64, .f32⟩ : BufTy).Contents (Elt Ideal)) (x1 : (⟨S1000000x1, .f32⟩ : BufTy).Contents (Elt Ideal)) (x2 : (⟨S2x1000000, .i32⟩ : BufTy).Contents (Elt Ideal))
  (x4 : (⟨S1000000x1, .f32⟩ : BufTy).Contents (Elt Ideal)) (x5 : (⟨S64x64, .f32⟩ : BufTy).Contents (Elt Ideal)) (x6 : (⟨S64, .f32⟩ : BufTy).Contents (Elt Ideal)) (x7 : (⟨S64x129, .f32⟩ : BufTy).Contents (Elt Ideal))
  (x8 : (⟨S64, .f32⟩ : BufTy).Contents (Elt Ideal)) (x9 : (⟨S1x64, .f32⟩ : BufTy).Contents (Elt Ideal)) (x10 : (⟨S1, .f32⟩ : BufTy).Contents (Elt Ideal))
  (n : Fin 100000)

-- The row of node n in the summed messages (the scatter's result, never opened here) and in the projected array,
-- the residual row built from the two, and its mean.
local notation "aRow" => (fun k : Fin 64 => val_main_v46 (F := Ideal) x0 x1 x2 x4 x5 x6 x7 x8 x9 x10 (ix2 n k))
local notation "xRow" => (fun k : Fin 64 => val_main_v4 (F := Ideal) x0 x5 x6 (ix2 n k))
local notation "oRow" => Cert.Spec.outRow aRow xRow
local notation "oMean" => Cert.Spec.meanOf oRow

/-- The residual row: the summed messages over one hundred, which is their product with one hundredth on every extended
    real, plus the projected row. -/
theorem v49_at (k : Fin 64) : val_main_v49 (F := Ideal) x0 x1 x2 x4 x5 x6 x7 x8 x9 x10 (ix2 n k) = oRow k := by
  rw [val_main_v49_apply, val_main_v48_apply, val_main_v47_apply, val_main_cst_5_apply]
  simp only [Ideal.addf_def, Ideal.hostDivf_def, Ideal.ofBits_def, ofBits_hundred_f32]
  rw [Ideal.div_coe (by norm_num : (100 : ℝ) ≠ 0)]
  rfl

/-- The row's mean: the sum over the 64 entries starts from the zero literal and is divided by the literal 64.0. -/
theorem v53_at : val_main_v53 (F := Ideal) x0 x1 x2 x4 x5 x6 x7 x8 x9 x10 (ix2 n (0 : Fin 1)) = oMean := by
  rw [val_main_v53_apply, val_main_v51_apply, val_main_v52_apply, val_main_cst_7_apply, idx_v51_eq, val_main_v50_apply,
    val_main_cst_6_apply]
  simp only [idx_v50_eq, v49_at, Ideal.hostDivf_def, Ideal.ofBits_def, Ideal.ofBits_zero_f32, zero_add]
  rfl

/-- The deviation from the mean, as the operand of the square. -/
theorem v55_at (k : Fin 64) : val_main_v55 (F := Ideal) x0 x1 x2 x4 x5 x6 x7 x8 x9 x10 (ix2 n k) = oRow k - oMean := by
  rw [val_main_v55_apply, val_main_v54_apply, idx_v54_eq, v49_at, v53_at]
  rfl

/-- The deviation from the mean, as the operand of the scaling (the same broadcast of the mean, made a second time). -/
theorem v62_at (k : Fin 64) : val_main_v62 (F := Ideal) x0 x1 x2 x4 x5 x6 x7 x8 x9 x10 (ix2 n k) = oRow k - oMean := by
  rw [val_main_v62_apply, val_main_v61_apply, idx_v61_eq, v49_at, v53_at]
  rfl

/-- The mean of the squared deviations: again a sum from the zero literal over the literal 64.0. -/
theorem v60_at : val_main_v60 (F := Ideal) x0 x1 x2 x4 x5 x6 x7 x8 x9 x10 (ix2 n (0 : Fin 1))
    = Cert.Spec.meanOf (fun k => (oRow k - oMean) * (oRow k - oMean)) := by
  rw [val_main_v60_apply, val_main_v58_apply, val_main_v59_apply, val_main_cst_9_apply, idx_v58_eq, val_main_v57_apply,
    val_main_cst_8_apply]
  simp only [idx_v57_eq, val_main_v56_apply, v55_at, Ideal.hostDivf_def, Ideal.mulf_def, Ideal.ofBits_def,
    Ideal.ofBits_zero_f32, zero_add]
  rfl

variable (x11 x12 : (⟨S64, .f32⟩ : BufTy).Contents (Elt Ideal))

/-- The operand of the final silu: the deviation times the reciprocal square root of the stabilised mean square, scaled
    by the gain's entry and shifted by the bias's entry (each a vector of 64 broadcast over the rows). -/
theorem v73_at (d : Fin 64) : val_main_v73 (F := Ideal) x0 x1 x2 x4 x5 x6 x7 x8 x9 x10 x11 x12 (ix2 n d)
    = (oRow d - oMean)
        * Ideal.rsqrt (Cert.Spec.meanOf (fun k => (oRow k - oMean) * (oRow k - oMean)) + Ideal.ofBits .f32 0x3727C5AC#32)
        * x11 (ix1 d) + x12 (ix1 d) := by
  rw [val_main_v73_apply, val_main_v70_apply, val_main_v67_apply, v62_at, val_main_v66_apply, idx_v66_eq, val_main_v65_apply,
    val_main_v64_apply, v60_at, val_main_v63_apply, val_main_cst_10_apply, val_main_v69_apply, val_main_v68_apply, idx_v69_eq,
    val_main_v72_apply, val_main_v71_apply, idx_v72_eq]
  rfl

end Norm

/-! ### The result: the outlined silu, v · (1 / (1 + e^(−v))) with the literal 1.0, is v · logistic v -/

/-- Entry (n, d) of the reference's result: the normalised row built from the summed messages (the scatter's result) and
    the projected row; the reference's division by 100 is the product with one hundredth on every extended real. -/
theorem ref_norm (x0 : (⟨S100000x64, .f32⟩ : BufTy).Contents (Elt Ideal)) (x1 : (⟨S1000000x1, .f32⟩ : BufTy).Contents (Elt Ideal)) (x2 : (⟨S2x1000000, .i32⟩ : BufTy).Contents (Elt Ideal))
    (x4 : (⟨S1000000x1, .f32⟩ : BufTy).Contents (Elt Ideal)) (x5 : (⟨S64x64, .f32⟩ : BufTy).Contents (Elt Ideal)) (x6 : (⟨S64, .f32⟩ : BufTy).Contents (Elt Ideal)) (x7 : (⟨S64x129, .f32⟩ : BufTy).Contents (Elt Ideal)) (x8 : (⟨S64, .f32⟩ : BufTy).Contents (Elt Ideal))
    (x9 : (⟨S1x64, .f32⟩ : BufTy).Contents (Elt Ideal)) (x10 : (⟨S1, .f32⟩ : BufTy).Contents (Elt Ideal)) (x11 x12 : (⟨S64, .f32⟩ : BufTy).Contents (Elt Ideal)) (n : Fin 100000) (d : Fin 64) :
    val_main_v74 (F := Ideal) x0 x1 x2 x4 x5 x6 x7 x8 x9 x10 x11 x12 (ix2 n d)
      = Cert.Spec.normRow (fun k => val_main_v46 (F := Ideal) x0 x1 x2 x4 x5 x6 x7 x8 x9 x10 (ix2 n k))
          (fun k => val_main_v4 (F := Ideal) x0 x5 x6 (ix2 n k))
          (fun k => x11 (ix1 k)) (fun k => x12 (ix1 k)) d := by
  rw [val_main_v74_apply, val_main_call1_v5_apply, val_main_call1_v4_apply, val_main_call1_cst_0_apply, val_main_call1_v3_apply,
    val_main_call1_v2_apply, val_main_call1_cst_apply, val_main_call1_v1_apply, val_main_call1_v0_apply, v73_at]
  simp only [Ideal.mulf_def, Ideal.hostDivf_def, Ideal.addf_def, Ideal.hostUnary_exp_def, Ideal.hostNegf_def, Ideal.negf_def,
    Ideal.ofBits_def, Ideal.ofBits_one_f32]
  rfl

end Cert.ReferenceIdeal.RefVal

end
-- ==== Proof.Bridge.lean ====
/-
  The two programs compute one array. Stage by stage, at the extended reals and under the precondition (every entry of
  the edge list a node number):

  * the projected array of the kernel's first launch is the reference's projection (both are Σₖ h[n,k]·W[d,k] + b[d]);
  * with every index a node number the kernel's filled row gathers fill nothing, so its source and target rows are the
    reference's gathered rows (the same gather of the same array by the same moved indices);
  * the kernel's message array is the reference's (the 129-wide contraction of the concatenated row is the two 64-wide
    products and the distance term; the activation and the attention weight are spelt alike);
  * both sum the messages per source node by the same scatter-add into a zero array;
  * the kernel's last launch is the reference's normalisation (the kernel multiplies the sums by the named 1/100 where the
    reference divides by 100: one value on every extended real).
-/
import proofs.«426974_j57655640981900_3_alg».proof.Proof.HostStretches
import proofs.«426974_j57655640981900_3_alg».proof.Proof.LinBlock
import proofs.«426974_j57655640981900_3_alg».proof.Proof.AttnBlock
import proofs.«426974_j57655640981900_3_alg».proof.Proof.NormBlock
import proofs.«426974_j57655640981900_3_alg».proof.Proof.RefAttn
import proofs.«426974_j57655640981900_3_alg».proof.Proof.RefNorm
import proofs.«426974_j57655640981900_3_alg».proof.Proof.TakeInRange
import Idealize.ShloMosaic.Lib.ValueLayout

set_option maxRecDepth 16384

noncomputable section

open Idealize.ShloMosaic Idealize.ShloMosaic.TcCoe Idealize.SL.Sem Idealize.ShloMosaic.StableHlo
open Idealize.ShloMosaic.ValueIdx

namespace Cert.Bridge

open Cert.KernelIdeal Cert.KernelIdeal.Gen Cert.KernelIdeal.HostVal

variable (m : (ℓ : Loc nD τ sig) → Buf (Elt Ideal) ℓ) (ρ : Dev nD → PrngReg) (c : Dev nD)

/-! ## The projection -/

/-- The kernel's projected array is the reference's. -/
theorem proj_eq :
    W2 m ρ c (Proc.devRef .tc main_v1) = Cert.ReferenceIdeal.ReadP.val_main_v4 (F := Ideal) (m ((c : Thread nD τ).loc main_arg0)) (m ((c : Thread nD τ).loc main_arg5)) (m ((c : Thread nD τ).loc main_arg6)) := by
  funext i
  obtain ⟨n, d, rfl⟩ : ∃ (n : Fin 100000) (d : Fin 64), i = ix2 n d := ⟨i 0, i 1, eq_ix2 i⟩
  rw [W2_v1]
  refine (Cert.KernelIdeal.Lin.final0 (V1 m ρ) c n d).trans ?_
  rw [Cert.ReferenceIdeal.RefVal.ref_lin]
  dsimp only [V1]
  rw [W1_arg0, W1_arg5, W1_v0]
  have hb : (fun j : Fin 64 => (shapeCast _ (m ((c : Thread nD τ).loc main_arg6)) shapeCasts_S64_S1x64 : S1x64.Idx → EReal) (ix2 (0 : Fin 1) j))
      = fun j : Fin 64 => ((m ((c : Thread nD τ).loc main_arg6)) : S64.Idx → EReal) (ix1 j) := funext fun j => shapeCast_a_1a_apply _ _ _ _
  rw [hb]

/-! ## The gathered rows -/

section InRange

variable (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = (fun _ => 1#1))
include hpre

theorem row0_range (e : S1000000.Idx) : 0 ≤ (edgeRow0 m ρ c e).toInt ∧ (edgeRow0 m ρ c e).toInt < 100000 := by
  have h := Cert.KernelIdeal.Take.edges_in_range _ _ _ _ _ _ _ _ _ _ _ _ _ hpre
  unfold edgeRow0
  rw [W2_arg2]
  exact h _

theorem row1_range (e : S1000000.Idx) : 0 ≤ (edgeRow1 m ρ c e).toInt ∧ (edgeRow1 m ρ c e).toInt < 100000 := by
  have h := Cert.KernelIdeal.Take.edges_in_range _ _ _ _ _ _ _ _ _ _ _ _ _ hpre
  unfold edgeRow1
  rw [W2_arg2]
  exact h _

/-- The kernel's source rows are the reference's first gather. -/
theorem src_eq :
    W6 m ρ c (Proc.devRef .tc main_v6) = Cert.ReferenceIdeal.ReadP.val_main_v15 (F := Ideal) (m ((c : Thread nD τ).loc main_arg0)) (m ((c : Thread nD τ).loc main_arg2)) (m ((c : Thread nD τ).loc main_arg5)) (m ((c : Thread nD τ).loc main_arg6)) := by
  rw [W6_v6, Cert.KernelIdeal.Take.takeTerm_eq_gather _ _ (row0_range m ρ c hpre), proj_eq]
  unfold edgeRow0
  rw [W2_arg2]
  rfl

/-- The kernel's target rows are the reference's second gather. -/
theorem tgt_eq :
    W6 m ρ c (Proc.devRef .tc main_v7) = Cert.ReferenceIdeal.ReadP.val_main_v22 (F := Ideal) (m ((c : Thread nD τ).loc main_arg0)) (m ((c : Thread nD τ).loc main_arg2)) (m ((c : Thread nD τ).loc main_arg5)) (m ((c : Thread nD τ).loc main_arg6)) := by
  rw [W6_v7, Cert.KernelIdeal.Take.takeTerm_eq_gather _ _ (row1_range m ρ c hpre), proj_eq]
  unfold edgeRow1
  rw [W2_arg2]
  rfl

/-! ## The messages -/

/-- The kernel's message array is the reference's. -/
theorem msg_eq :
    W7 m ρ c (Proc.devRef .tc main_v15) = Cert.ReferenceIdeal.ReadP.val_main_v43 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨e, d, rfl⟩ : ∃ (e : Fin 1000000) (d : Fin 64), i = ix2 e d := ⟨i 0, i 1, eq_ix2 i⟩
  rw [W7_v15]
  refine (Cert.KernelIdeal.Attn.final1 (V6 m ρ) c e d).trans ?_
  rw [Cert.ReferenceIdeal.RefVal.ref_agg]
  dsimp only [V6]
  rw [src_eq m ρ c hpre, tgt_eq m ρ c hpre, W6_arg1, W2_arg1, W6_arg4, W2_arg4, W6_v8, W6_v9, W6_v12, W2_arg7, W6_v13, W2_arg8,
    W6_arg9, W2_arg9, W6_v14, W2_arg10]
  have h8 : (fun (j k : Fin 64) => (extractStridedSlice S64x64 ![0, 0] (m ((c : Thread nD τ).loc main_arg7)) slices_S64x129_S64x64_0_0 : S64x64.Idx → EReal) (ix2 j k))
      = fun (j k : Fin 64) => ((m ((c : Thread nD τ).loc main_arg7)) : S64x129.Idx → EReal) (ix2 j (⟨k.val, by have := k.isLt; omega⟩ : Fin 129)) :=
    funext fun j => funext fun k => slice2_axis1_apply 0 _ _ j k _ (Nat.zero_add _).symm
  have h9 : (fun (j k : Fin 64) => (extractStridedSlice S64x64 ![0, 64] (m ((c : Thread nD τ).loc main_arg7)) slices_S64x129_S64x64_0_64 : S64x64.Idx → EReal) (ix2 j k))
      = fun (j k : Fin 64) => ((m ((c : Thread nD τ).loc main_arg7)) : S64x129.Idx → EReal) (ix2 j (⟨64 + k.val, by have := k.isLt; omega⟩ : Fin 129)) :=
    funext fun j => funext fun k => slice2_axis1_apply 64 _ _ j k _ rfl
  have h12 : (fun j : Fin 64 => (shapeCast _ (shapeCast _ (extractStridedSlice S64x1 ![0, 128] (m ((c : Thread nD τ).loc main_arg7)) slices_S64x129_S64x1_0_128) shapeCasts_S64x1_S64) shapeCasts_S64_S1x64 : S1x64.Idx → EReal) (ix2 (0 : Fin 1) j))
      = fun j : Fin 64 => ((m ((c : Thread nD τ).loc main_arg7)) : S64x129.Idx → EReal) (ix2 j (⟨128, by decide⟩ : Fin 129)) :=
    funext fun j => by
      rw [shapeCast_a_1a_apply]
      rw [shapeCast_apply _ shapeCasts_S64x1_S64 (ix1 j) (ix2 j (0 : Fin 1)) (by
        rw [Shape.rowMajor_val_two, Shape.rowMajor_val_one]
        show j.val * 1 + 0 = j.val
        omega)]
      exact slice2_axis1_apply 128 _ _ j (0 : Fin 1) _ rfl
  have h13 : (fun j : Fin 64 => (shapeCast _ (m ((c : Thread nD τ).loc main_arg8)) shapeCasts_S64_S1x64 : S1x64.Idx → EReal) (ix2 (0 : Fin 1) j))
      = fun j : Fin 64 => ((m ((c : Thread nD τ).loc main_arg8)) : S64.Idx → EReal) (ix1 j) := funext fun j => shapeCast_a_1a_apply _ _ _ _
  have h14 : (shapeCast _ (m ((c : Thread nD τ).loc main_arg10)) shapeCasts_S1_S1x1 : S1x1.Idx → EReal) (ix2 (0 : Fin 1) (0 : Fin 1))
      = ((m ((c : Thread nD τ).loc main_arg10)) : S1.Idx → EReal) (ix1 (0 : Fin 1)) := shapeCast_a_1a_apply _ _ _ _
  rw [h8, h9, h12, h13, h14]

/-! ## The per-node sums -/

/-- Both programs sum the messages per source node by one scatter-add into a zero array. -/
theorem sum_eq :
    W8 m ρ c (Proc.devRef .tc main_v18) = Cert.ReferenceIdeal.ReadP.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W8_v18, msg_eq m ρ c hpre, W7_v3, W6_v3]
  unfold edgeRow0
  rw [W2_arg2]
  rfl

/-! ## The result -/

/-- The kernel's result array is the reference's last stage function of the arguments. -/
theorem result_eq :
    W9 m ρ c (Proc.devRef .tc main_v21) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨n, d, rfl⟩ : ∃ (n : Fin 100000) (d : Fin 64), i = ix2 n d := ⟨i 0, i 1, eq_ix2 i⟩
  rw [W9_v21]
  refine (Cert.KernelIdeal.Norm.final2 (V8 m ρ) c n d).trans ?_
  rw [Cert.ReferenceIdeal.RefVal.ref_norm]
  dsimp only [V8]
  rw [sum_eq m ρ c hpre, W8_v1, W7_v1, W6_v1, proj_eq, W8_v19, W7_arg11, W6_arg11, W2_arg11, W8_v20, W7_arg12, W6_arg12, W2_arg12]
  have h19 : (fun k : Fin 64 => (shapeCast _ (m ((c : Thread nD τ).loc main_arg11)) shapeCasts_S64_S1x64 : S1x64.Idx → EReal) (ix2 (0 : Fin 1) k))
      = fun k : Fin 64 => ((m ((c : Thread nD τ).loc main_arg11)) : S64.Idx → EReal) (ix1 k) := funext fun k => shapeCast_a_1a_apply _ _ _ _
  have h20 : (fun k : Fin 64 => (shapeCast _ (m ((c : Thread nD τ).loc main_arg12)) shapeCasts_S64_S1x64 : S1x64.Idx → EReal) (ix2 (0 : Fin 1) k))
      = fun k : Fin 64 => ((m ((c : Thread nD τ).loc main_arg12)) : S64.Idx → EReal) (ix1 k) := funext fun k => shapeCast_a_1a_apply _ _ _ _
  rw [h19, h20]

end InRange

end Cert.Bridge

end
-- ==== Proof.lean ====
/-
  One graph-convolution layer on 100000 nodes and 1000000 edges: a projection x = h·Wᵀ + b, per edge an attention weight
  from a two-layer perceptron on (x[row], x[col], distance) times the edge mask, the target rows scaled by it and summed
  per source node, the sums divided by 100 and added to x, a layer normalisation over the 64 features and silu. The kernel
  does the projection, the per-edge part and the normalisation in three launches with host gathers and a host scatter-add
  between them; the reference is the same arithmetic in plain array operations.

  On the extended reals, under the precondition (every float input finite, every entry of the edge list a node number),
  the two programs compute one array. What differs and why it does not matter:
  * a change of float format is the identity, and a matrix product into a zero accumulator is the host's product;
  * the kernel's row gather fills rows whose index is out of range, the reference's clamps the index: with every index a
    node number neither happens;
  * the reference contracts the concatenated row (source, target, distance) against the 129-column weight, the kernel
    adds the two 64-wide products and the distance term: addition on the extended reals is associative and commutative;
  * the kernel multiplies the per-node sums by the named constant 1/100, the reference divides by 100: one value on every
    extended real;
  * silu and the attention weight are v · (1 / (1 + e^(−v))) on both sides.
  Each frame is the program's run with the result forgotten; the idealization's one rewrite is the named constant.
-/
import proofs.«426974_j57655640981900_3_alg».proof.Defs
import proofs.«426974_j57655640981900_3_alg».proof.Proof.Gen.Kernel
import proofs.«426974_j57655640981900_3_alg».proof.Proof.Gen.Kernel.Frame
import proofs.«426974_j57655640981900_3_alg».proof.Proof.Gen.KernelIdeal
import proofs.«426974_j57655640981900_3_alg».proof.Proof.Gen.KernelIdeal.Frame
import proofs.«426974_j57655640981900_3_alg».proof.Proof.Gen.ReferenceIdeal
import proofs.«426974_j57655640981900_3_alg».proof.Proof.Gen.Pre_finite_inputs
import proofs.«426974_j57655640981900_3_alg».proof.Proof.KernelRun
import proofs.«426974_j57655640981900_3_alg».proof.Proof.RefRun
import proofs.«426974_j57655640981900_3_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- The idealization's one rewrite: the kernel's literal 0.01 is named, and the name's value is 1/100. -/
theorem preserves : Cert.preserves_Kernel_KernelIdeal :=
  IdealRules.named_const.statement Cert.KernelIdeal.κ "inv_100" .f32 0x3C23D70A#32 ((1 / 100 : ℝ) : EReal) rfl

/-- Both programs end with the same result array: the kernel's last launch leaves the reference's last stage function of
    the arguments (the bridge), and the reference's run ends at that function of its own arguments, which agree. -/
theorem algebraic : Cert.algebraic_KernelIdeal_ReferenceIdeal := by
  intro m ρ m' ρ' hpre hagree
  refine ⟨fun c => Cert.KernelIdeal.Gen.W9 m ρ c (Proc.devRef .tc Cert.KernelIdeal.main_v21),
    Cert.KernelIdeal.Gen.run_result m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7, e8, e9, e10, e11, e12⟩ := hagree c
  rw [e0, e1, e2, e4, e5, e6, e7, e8, e9, e10, e11, e12]
  exact (Cert.Bridge.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
